-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S512x512 : Shape := ⟨2, ![512, 512]⟩
abbrev S512 : Shape := ⟨1, ![512]⟩
abbrev S512x1 : Shape := ⟨2, ![512, 1]⟩
abbrev S8192x512 : Shape := ⟨2, ![8192, 512]⟩
abbrev S8192 : Shape := ⟨1, ![8192]⟩
abbrev S1024x512 : Shape := ⟨2, ![1024, 512]⟩
abbrev S512x1024 : Shape := ⟨2, ![512, 1024]⟩
abbrev S_ : Shape := ⟨0, ![]⟩

abbrev nBuf : Space → Nat
  | .hbm => 18
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S4096, .f32⟩
  | .hbm, ⟨5, _⟩ => ⟨S8192x512, .bf16⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512, .f32⟩
  | .local _ .vmem, ⟨9, _⟩ => ⟨S512, .f32⟩
  | .local _ .vmem, ⟨10, _⟩ => ⟨S512x512, .bf16⟩
  | .local _ .vmem, ⟨11, _⟩ => ⟨S512x512, .bf16⟩
  | .local _ .vmem, ⟨12, _⟩ => ⟨S1024x512, .bf16⟩
  | .local _ .vmem, ⟨13, _⟩ => ⟨S1024x512, .bf16⟩
  | .local _ .vmem, ⟨14, _⟩ => ⟨S512, .f32⟩
  | .local _ .vmem, ⟨15, _⟩ => ⟨S512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  inb_S512_S512_0 : ∀ a, (![0] : Fin 1 → Nat) a + S512.size a ≤ S512.size a
  h_S512 : 0 < S512.numel
  concatenates_S4096x512_S4096x512_S8192x512_d0 : Shape.Concatenates [S4096x512, S4096x512] S8192x512 0
  concatenates_S4096_S4096_S8192_d0 : Shape.Concatenates [S4096, S4096] S8192 0
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S512x1024_d0_w32 : S512x1024.Iotas .tc 32 [0]
  iota_S512x1024_d1_w32 : S512x1024.Iotas .tc 32 [1]
  shapeCasts_S512_S512 : S512.ShapeCasts S512
  reduces_S512x1024_S512 : S512x1024.Reduces [1] S512
  bcast_S_S8192 : S_.BroadcastsInDim S8192 (![] : Fin 0 → Fin S8192.rank)
  reducesTo_S8192_S_d0 : S8192.ReducesTo [0] S_
  h_S_ : 0 < S_.numel
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .bf16 = 32 ∨ (Rect.block (s := S4096x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .bf16 = 32 ∨ (Rect.block (s := S4096x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .f32 = 32 ∨ (Rect.block (s := S4096) S512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .bf16 = 32 ∨ (Rect.block (s := S8192x512) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S8192.size a
  hwx1_2 : ∀ i : grid1.Coords, EltTy.bits .f32 = 32 ∨ (Rect.block (s := S8192) S512.size (cc1_transform_2 i) (hinb1_2 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S8192x8192 : Shape := ⟨2, ![8192, 8192]⟩
abbrev S8192 : Shape := ⟨1, ![8192]⟩

abbrev nBuf : Space → Nat
  | .hbm => 55
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S8192x8192, .f32⟩
  | .hbm, ⟨24, _⟩ => ⟨S4096x512, .f32⟩
  | .hbm, ⟨25, _⟩ => ⟨S_, .f32⟩
  | .hbm, ⟨26, _⟩ => ⟨S4096, .f32⟩
  | .hbm, ⟨27, _⟩ => ⟨S8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .i32⟩
  | .hbm, ⟨33, _⟩ => ⟨S8192x8192, .i32⟩
  | .hbm, ⟨34, _⟩ => ⟨S_, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.K.Data.lean ====
/-
  The proof data of the two pipelined kernels, at any float instance and at any contents `V` of the core's buffers
  when the kernel is entered.

  Normalisation kernel (8 row tiles of 512 rows): at tile `t` the two input windows hold rows 512t … 512t+511 of the two
  embeddings; the body leaves in the three output windows the row-normalised tiles `x / max (‖x‖, ε)` (narrowed to bf16)
  and the 512 row-wise inner products of the two normalised tiles.

  Denominator kernel (16 row tiles × 8 column tiles, the column tile the fast axis): at point `t = 8·i + j` the row window
  holds rows 512i … of `z`, the column window rows 1024j … of the same `z`, and the 512-word output window, which is written
  back only after the last column tile, carries the running sum: at `j = 0` it is reset to zero first, so it ends the point at
  `0 + s(i, 0)`; at `j > 0` it ends at `(what point t − 1 left) + s(i, j)`, where `s(i, j)` is the row sum over the tile's
  1024 columns of `exp (2·⟨z_r, z_c⟩)` with the diagonal entries `r = c` replaced by zero.
-/
import proofs.«154075_j24962349924507_1_alg».proof.Proof.Gen.Kernel.Launch
import proofs.«154075_j24962349924507_1_alg».proof.Proof.Gen.Kernel.Skeleton
import proofs.«154075_j24962349924507_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The normalisation kernel -/

/-- Window `w`'s block at row tile `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After row tile `t`: the inputs' staging buffers still hold their tiles; the outputs' hold the two normalised tiles and
    the row-wise inner products of the normalised tiles. Whole arrays, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (iblk0 V c 0 t)
    | ⟨3, _⟩ => k0_pay5 (iblk0 V c 1 t)
    | ⟨4, _⟩ => k0_pay3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (iblk0 V c 0 t) := by dsimp only [dat0]
theorem after0_3 (c : Dev nD) (t : Fin cfg0.N) : (dat0 V c).after 3 t = k0_pay5 (iblk0 V c 1 t) := by dsimp only [dat0]
theorem after0_4 (c : Dev nD) (t : Fin cfg0.N) : (dat0 V c).after 4 t = k0_pay3 (iblk0 V c 0 t) (iblk0 V c 1 t) := by dsimp only [dat0]

/-! ## The denominator kernel -/

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the running row sums: `prev + s(i, j)` at the point's row and column tiles. -/
def step1 (c : Dev nD) (t : Fin cfg1.N) (prev : Vec F S512 .f32) : Vec F S512 .f32 :=
  k1_pay2 (grid1.coords t) (iblk1 V c 0 t) (iblk1 V c 1 t) prev

/-- The running row sums after point `n`: restarted from zero at the first column tile of a row tile (`n ≡ 0 mod 8`),
    continued from what point `n − 1` left otherwise. -/
def outsAt1 (c : Dev nD) : (n : ℕ) → n < cfg1.N → Vec F S512 .f32
  | 0, hn => step1 V c ⟨0, hn⟩ (k1_pay1 (F := F))
  | n + 1, hn =>
    if (n + 1) % 8 = 0 then step1 V c ⟨n + 1, hn⟩ (k1_pay1 (F := F))
    else step1 V c ⟨n + 1, hn⟩ (outsAt1 c n (Nat.lt_of_succ_lt hn))

/-- At the first column tile of a row tile the sum restarts from zero. -/
theorem outsAt1_first (c : Dev nD) (t : Fin cfg1.N) (h0 : t.val % 8 = 0) :
    outsAt1 V c t.val t.isLt = step1 V c t (k1_pay1 (F := F)) := by
  obtain ⟨n, hn⟩ := t
  cases n with
  | zero => rfl
  | succ n => exact (if_pos h0).trans rfl

/-- At a later column tile it continues from what the point before left. -/
theorem outsAt1_next (c : Dev nD) (t : Fin cfg1.N) (h0 : ¬t.val % 8 = 0) :
    outsAt1 V c t.val t.isLt = step1 V c t (outsAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- After point `t`: the row and column windows still hold their tiles of `z`; the output window holds the running row
    sums. The two input windows read ONE array, each holding half of it; the output array is held outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem share1_0 (c : Dev nD) : (dat1 V c).share 0 = fullShare.left := rfl
theorem share1_1 (c : Dev nD) : (dat1 V c).share 1 = fullShare.right := rfl
theorem share1_2 (c : Dev nD) : (dat1 V c).share 2 = fullShare := rfl

end Cert.Kernel.Pf

end
-- ==== Proof.K.Body0.lean ====
/-
  The normalisation kernel's body meets its proof data: entered with the two input windows' staging buffers at their row
  tiles, it leaves them unchanged and the three output windows' buffers at the normalised tiles and the row-wise inner
  products (the skeleton's payloads of the two tiles), at every one of the 8 grid points.
-/
import proofs.«154075_j24962349924507_1_alg».proof.Proof.K.Data
import Idealize.ShloMosaic.Lib.Pipeline.Value

set_option maxRecDepth 16384

noncomputable section

namespace Cert.Kernel.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers -/

/-- Input window 0's current staging buffer holds its row tile at every point: the window is fetched whole and the body
    leaves its tile in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1's likewise. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## Whole-buffer accesses

The body reads and writes every staging buffer through the rectangle that starts at offset zero and has the buffer's own
extents. Through it a load reads the buffer's contents, and one store leaves its payload whatever the buffer held. -/

section Whole

variable {sg : RefSig} {κ : Kind} {sp : Space} {S : Shape} {e : EltTy}

/-- A load through the whole-buffer rectangle at zero offsets reads the contents. -/
theorem readAt_whole (v : View sg κ sp S e) (f : v.ty.Contents (Elt F)) {off : Fin S.rank → Nat}
    (hz : off = fun _ => 0) (inb : ∀ a, off a + S.size a ≤ S.size a) :
    v.readAt (Elt F) (Rect.unit off S.size inb).toLoadRect f = v.read (Elt F) f := by
  rw [View.readAt_eq_ld, View.ld_unit_zero hz]

/-- One store of `p` through it leaves `p`: the rectangle holds every index, so nothing of the old contents is left. -/
theorem read_writes_whole (v : View sg κ sp S e) (f : v.ty.Contents (Elt F)) {off : Fin S.rank → Nat}
    (hz : off = fun _ => 0) (inb : ∀ a, off a + S.size a ≤ S.size a) (p : S.Idx → Elt F e) :
    v.read (Elt F) (v.writes (Elt F) f [⟨Rect.unit off S.size inb, p⟩]) = p := by
  rw [View.read_writes_eq_canon _ _ _
      (fun y => ⟨_, List.mem_singleton_self _, View.mem_set_unit_zero hz inb y⟩),
    View.canon_unit_zero hz]

end Whole

omit [FloatOps F] in
/-- The two-axis offset vector of the body's accesses is zero; -/
theorem off2_zero : (![0, 0] : Fin S512x512.rank → Nat) = fun _ => 0 := funext fun a => by fin_cases a <;> rfl

omit [FloatOps F] in
/-- and so is the one-axis one. -/
theorem off1_zero : (![0] : Fin S512.rank → Nat) = fun _ => 0 := funext fun a => by fin_cases a <;> rfl

/-! ## The body's triple -/

set_option maxHeartbeats 1000000 in
/-- The kernel body on whole staging memrefs, the two inputs' at read contents `x0`, `x1` and the three outputs' at
    anything, runs to the continuation holding the inputs' as they were and each output's at its payload of the inputs. -/
theorem sound_kernel0 (c : Dev nD) (E : Set ℕ) (i : grid0.Coords)
    (arg1 : Memref sig .tc .vmem S512x512 .f32) (harg1 : arg1.IsWhole)
    (arg2 : Memref sig .tc .vmem S512x512 .f32) (harg2 : arg2.IsWhole)
    (arg3 : Memref sig .tc .vmem S512x512 .bf16) (harg3 : arg3.IsWhole)
    (arg4 : Memref sig .tc .vmem S512x512 .bf16) (harg4 : arg4.IsWhole)
    (arg5 : Memref sig .tc .vmem S512 .f32) (harg5 : arg5.IsWhole)
    (x0 x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (k0_pay4 x0) ∗ owns (c : Thread nD τ) arg4 fullShare (k0_pay5 x1)
            ∗ owns (c : Thread nD τ) arg5 fullShare (k0_pay3 x0 x1)) -∗ K ⟨⟩))
      ⊢ wp frame (wpE (defs₀ (F := F)) Variants.none c none) E
          (cc0__normalize_kernel i arg1 harg1 arg2 harg2 arg3 harg3 arg4 harg4 arg5 harg5) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_writes_whole _ _ off2_zero, readAt_whole _ _ off2_zero]
  isplitl [H3]
  · iexists _; isplitr
    swap; · iexact H3
    ipureintro
    rw [read_writes_whole _ _ off2_zero, readAt_whole _ _ off2_zero]
  iexists _; isplitr
  swap; · iexact H4
  ipureintro
  rw [read_writes_whole _ _ off1_zero, readAt_whole _ _ off2_zero, readAt_whole _ _ off2_zero]

/-- The invariant does not depend on the point; -/
theorem Φ_next0 (c : Dev nD) (t : Fin cfg0.N) : (dat0 V c).Φ t.succ = (dat0 V c).Φ t.castSucc := by
  dsimp only [dat0]

/-- nor does what the core owes: nothing, at every point. -/
theorem owes_next0 (c : Dev nD) (t : Fin cfg0.N) :
    (dat0 V c).owesAt () t.succ = (dat0 V c).owesAt () t.castSucc := by
  unfold Dat.owesAt Dat.bound
  dsimp only [dat0]

/-! ## The body obligation, at a generic point -/

/-- What the body is called with at point `t`: the invariant, what the core owes, and the five windows' current staging
    buffers, one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the two inputs' buffers hold their row tiles, the three outputs' hold something, so the
    kernel's triple applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [Φ_next0, owes_next0,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the normalisation kernel, at every point. -/
theorem body_obligation0 (c : Dev nD) : BodyObligation (dat0 (F := F) V c) (defs₀ (F := F)) Variants.none () Set.univ := by
  intro t
  rw [bigSep_W0, bigSep_W0]
  exact sound_body0 V c t

end Cert.Kernel.Pf

end
-- ==== Proof.K.Body1.lean ====
/-
  The denominator kernel's body meets its proof data at each of the 128 grid points: with the row and column windows at
  their tiles of `z`, a point at the first column tile resets the output window to zero and then adds the tile's masked row
  sums; a later point finds in the output window what the point before left (the window is not written back in between) and
  adds its tile's sums to it.
-/
import proofs.«154075_j24962349924507_1_alg».proof.Proof.K.Data
import Idealize.ShloMosaic.Lib.Pipeline.Value

set_option maxRecDepth 16384

noncomputable section

namespace Cert.Kernel.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch condition -/

/-- The condition of the body's one conditional, from the grid coordinates: the column tile is the first. -/
abbrev cond1 (i : grid1.Coords) : Prop :=
  (Scalar.cmpi .ne (Scalar.extui (Scalar.cmpi .eq (BitVec.ofNat 32 (i 1).val) 0#32)) 0#32) = 1#1

/-- It holds exactly at the points `t ≡ 0 (mod 8)`: decided over the grid. -/
theorem hcond1 : ∀ t : Fin cfg1.N, cond1 (grid1.coords t) ↔ t.val % 8 = 0 :=
  (by decide +kernel : ∀ t : Fin grid1.N, cond1 (grid1.coords t) ↔ t.val % 8 = 0)

/-! ## Whole-buffer loads and stores -/

theorem hz1 : (![0] : Fin 1 → Nat) = fun _ => 0 := funext fun a => by fin_cases a <;> rfl
theorem hz2 : (![0, 0] : Fin 2 → Nat) = fun _ => 0 := funext fun a => by fin_cases a <;> rfl

/-- A list of stores whose last is of the whole output buffer covers it. -/
theorem cover1 (w : S512.Idx → Elt F .f32) (L : List (View.Piece (Elt F) S512 .f32)) (y : S512.Idx) :
    ∃ p ∈ ((⟨Rect.unit ![0] S512.size inb_S512_S512_0, w⟩ : View.Piece (Elt F) S512 .f32) :: L), y ∈ p.1.set := by
  refine ⟨_, List.mem_cons_self, ?_⟩
  exact View.mem_set_unit_zero (S := S512) hz1 inb_S512_S512_0 y

/-- A store of the whole output buffer, made last, leaves its payload whatever was stored before. -/
theorem read_store_last {sg : RefSig} {κ : Kind} {sp : Space} (v : View sg κ sp S512 .f32) (f : v.ty.Contents (Elt F))
    (w : S512.Idx → Elt F .f32) (L : List (View.Piece (Elt F) S512 .f32)) :
    v.read (Elt F) (v.writes (Elt F) f ((⟨Rect.unit ![0] S512.size inb_S512_S512_0, w⟩ : View.Piece (Elt F) S512 .f32) :: L)) = w := by
  rw [View.read_writes_eq_canon v f _ (cover1 w L)]
  exact View.canon_cons_unit_zero (S := S512) hz1 inb_S512_S512_0 w L

/-- A load of the whole row-tile buffer reads its contents. -/
theorem load_whole0 (m : Memref sig .tc .vmem S512x512 .bf16) (h : m.IsWhole) (x : Vec F S512x512 .bf16) :
    View.readAt (Elt F) m.view (Rect.unit ![0, 0] S512x512.size inb_S512x512_S512x512_0_0).toLoadRect (h.unread x) = x := by
  rw [View.readAt_eq_ld, h.read_unread, View.ld_unit_zero (S := S512x512) hz2]

/-- A load of the whole column-tile buffer reads its contents. -/
theorem load_whole1 (m : Memref sig .tc .vmem S1024x512 .bf16) (h : m.IsWhole) (x : Vec F S1024x512 .bf16) :
    View.readAt (Elt F) m.view (Rect.unit ![0, 0] S1024x512.size inb_S1024x512_S1024x512_0_0).toLoadRect (h.unread x) = x := by
  rw [View.readAt_eq_ld, h.read_unread, View.ld_unit_zero (S := S1024x512) hz2]

/-- A load of the whole output buffer reads its contents. -/
theorem load_whole2 (m : Memref sig .tc .vmem S512 .f32) (h : m.IsWhole) (x : Vec F S512 .f32) :
    View.readAt (Elt F) m.view (Rect.unit ![0] S512.size inb_S512_S512_0).toLoadRect (h.unread x) = x := by
  rw [View.readAt_eq_ld, h.read_unread, View.ld_unit_zero (S := S512) hz1]

/-! ## The body on any whole staging memrefs -/

set_option maxHeartbeats 1000000 in
/-- At the first column tile: the output buffer, whatever it held, is zeroed, read back and left at the tile's masked row
    sums added to zero; the inputs' buffers are left as found. -/
theorem run_first (c : Dev nD) (i : grid1.Coords)
    (arg2 : Memref sig .tc .vmem S512x512 .bf16) (harg2 : arg2.IsWhole)
    (arg3 : Memref sig .tc .vmem S1024x512 .bf16) (harg3 : arg3.IsWhole)
    (arg4 : Memref sig .tc .vmem S512 .f32) (harg4 : arg4.IsWhole) (hc : cond1 i)
    (x0 : Vec F S512x512 .bf16) (x1 : Vec F S1024x512 .bf16) (E : Set ℕ) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay2 i x0 x1 (k1_pay1 (F := F)))) -∗ K ⟨⟩))
      ⊢ wp frame (wpE (defs₀ (F := F)) Variants.none c none) E (cc1__denom_kernel i arg2 harg2 arg3 harg3 arg4 harg4) K := by
  simp only [cc1__denom_kernel_eq_skeleton]; unfold cc1__denom_kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  refine (read_store_last _ _ _ _).trans ?_
  sl_unfold_words
  rw [load_whole0, load_whole1, View.readCov_unit_zero (S := S512) _ hz1]

set_option maxHeartbeats 1000000 in
/-- At a later column tile: no reset; the output buffer, holding `prev`, is read and left at the tile's masked row sums
    added to `prev`; the inputs' buffers are left as found. -/
theorem run_next (c : Dev nD) (i : grid1.Coords)
    (arg2 : Memref sig .tc .vmem S512x512 .bf16) (harg2 : arg2.IsWhole)
    (arg3 : Memref sig .tc .vmem S1024x512 .bf16) (harg3 : arg3.IsWhole)
    (arg4 : Memref sig .tc .vmem S512 .f32) (harg4 : arg4.IsWhole) (hc : ¬cond1 i)
    (x0 : Vec F S512x512 .bf16) (x1 : Vec F S1024x512 .bf16) (prev : Vec F S512 .f32) (E : Set ℕ) (K : PUnit → sProp 𝕄) :
    iprop(owns (c : Thread nD τ) arg2 fullShare x0 ∗ owns (c : Thread nD τ) arg3 fullShare x1
        ∗ owns (c : Thread nD τ) arg4 fullShare prev
        ∗ (iprop(owns (c : Thread nD τ) arg2 fullShare x0 ∗ owns (c : Thread nD τ) arg3 fullShare x1
            ∗ owns (c : Thread nD τ) arg4 fullShare (k1_pay2 i x0 x1 prev)) -∗ K ⟨⟩))
      ⊢ wp frame (wpE (defs₀ (F := F)) Variants.none c none) E (cc1__denom_kernel i arg2 harg2 arg3 harg3 arg4 harg4) K := by
  simp only [cc1__denom_kernel_eq_skeleton]; unfold cc1__denom_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  refine (read_store_last _ _ _ _).trans ?_
  sl_unfold_words
  rw [load_whole0, load_whole1, load_whole2]

/-! ## What the staging buffers hold when the body is called -/

/-- The row window's current buffer holds its tile at every point, fetched there or not (the tile index has not moved
    where it is not fetched). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The column window's current buffer holds its tile at every point. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- At a later column tile the output window's current buffer holds what the point before left: the point is not the
    first, the buffer was not written back in between (that happens after the last column tile only), and the window is
    uncut. -/
theorem before1_2_next (c : Dev nD) (t : Fin cfg1.N) (h0 : ¬t.val % 8 = 0) (d) :
    (dat1 V c).before 2 t d = outsAt1 V c (t.val - 1) (Nat.lt_of_le_of_lt (Nat.sub_le _ _) t.isLt) := by
  have hN : t.val < 128 := lt_of_lt_of_eq t.isLt (show cfg1.N = 128 from N_1)
  rw [Dat.before_out_kept _ 2 rfl t (by omega)
    (Bool.eq_false_iff.mpr fun h => by have := (flush1_2 _).mp h; dsimp only at this; omega)
    (fun _ => rfl) (fun _ _ => rfl)]
  exact after1_2 V c _

/-! ## The body obligation, at a generic point -/

/-- Each window's current staging memref at point `t`, as the pipeline passes it to the body, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512 .f32 := win1_2.stage (cfg1.slots t 2)
abbrev hs1_2 (t : Fin cfg1.N) : (ms1_2 t).IsWhole := hstage1_2 ((cfg1.slots t 2).cast nbuf1_2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' buffers hold their tiles; the condition's closed form says which case the point is
    in; at a later column tile the output buffer holds what the point before left; so the matching run applies. The
    invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [outsAt1_first V c t h0]
    unfold step1
    iintro ⟨HΦ, Ho, ⟨%d0, H0⟩, ⟨%d1, H1⟩, ⟨%d2, H2⟩⟩
    iapply (run_first c (grid1.coords t) _ _ _ _ _ _ ((hcond1 t).mpr h0) (iblk1 V c 0 t) (iblk1 V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_next V c t h0]
    simp only [before1_2_next V c t h0]
    unfold step1
    iintro ⟨HΦ, Ho, ⟨%d0, H0⟩, ⟨%d1, H1⟩, ⟨%d2, H2⟩⟩
    iapply (run_next c (grid1.coords t) _ _ _ _ _ _ (fun h => h0 ((hcond1 t).mp h)) (iblk1 V c 0 t) (iblk1 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation for the denominator kernel, at every point. -/
theorem body_obligation1 (c : Dev nD) : BodyObligation (dat1 (F := F) V c) (defs₀ (F := F)) Variants.none () Set.univ := by
  intro t
  rw [bigSep_W1, bigSep_W1]
  exact sound_body1 V c t

end Cert.Kernel.Pf

end
-- ==== Proof.K.Run.lean ====
/-
  The whole program, at any float instance: @main is the normalisation kernel, two concatenations, the denominator kernel
  and ten host operations. The contents of the core's buffers at each of the four boundaries are a fold from the launch
  memory: after the first kernel its three output arrays hold what its write-backs leave; after the concatenations the
  stacked array and the doubled positives are the host operations' results; after the second kernel its output array holds
  what its write-backs leave; after the last host operations the result is their term. Every weakly fair execution
  terminates, and the final memory holds every unscoped buffer at the last boundary's contents — the arguments, which no
  kernel writes and no host operation writes, as launched.

  The second kernel reads ONE array, the stacked `z`, through two input windows: at its entry the array's full share is
  halved between the two windows, and at its exit, both windows still holding the array as entered, the halves are joined.
-/
import proofs.«154075_j24962349924507_1_alg».proof.Proof.K.Body0
import proofs.«154075_j24962349924507_1_alg».proof.Proof.K.Body1

set_option maxRecDepth 16384

noncomputable section

namespace Cert.Kernel.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the first kernel's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first kernel: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two concatenations: the second kernel's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second kernel: its output array at what its write-backs leave, every other buffer as entered. -/
abbrev W3 : Dev nD → Valuation τ sig (Elt F) := fun c =>
  Function.update (W2 m ρ c) main_v3 ((dat1 (V2 m ρ) c).arrAt 2 cfg1.N)
abbrev V3 : (c : Dev nD) → (b : Ref sig .tc) → Buf (Elt F) ((c : Thread nD τ).loc b) := fun c b => W3 m ρ c b
/-- After the last host operations: the end. -/
abbrev W4 : Dev nD → Valuation τ sig (Elt F) := fun c => StableHlo.after hostOps2 (W3 m ρ c)

theorem V3_main_v3 (c : Dev nD) : V3 m ρ c main_v3 = (dat1 (V2 m ρ) c).arrAt 2 cfg1.N := Function.update_self ..
theorem V3_of_ne (c : Dev nD) (b : Ref sig .tc) (hb : b ≠ main_v3) : V3 m ρ c b = V2 m ρ c b :=
  Function.update_of_ne (StableHlo.devRef_ne_of_ne hb) ..

/-! ## The proof data family and the thread state -/

abbrev adm : (p : Fin 2) → (pcfgs (F := F) p).Adm := fun p => (cfgs p).toPCfg_adm
/-- Each kernel's proof data at its own entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- The normalisation kernel over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem arrs1_image : Finset.image (Pipeline.arrRef spec1) Finset.univ = ([main_v1, main_v3] : List (Ref sig .tc)).toFinset := by decide

/-- The denominator kernel's three windows' arrays, window by window: the stacked array at the row window's half and at
    the column window's half, the output array outright. -/
theorem arrays1_eq (c : Dev nD) (G : (w : Fin (Pipeline.pin (pcfgs (F := F)) adm 1).W) →
      Buf (Elt F) (((Pipeline.pin (pcfgs (F := F)) adm 1).spec w).arr.view.loc (c.tc : Thread nD τ))) :
    ((pdats m ρ 1 c).arrays G : sProp 𝕄)
      = iprop((((c : Thread nD τ).loc main_v1) ↦{fullShare.left} G 0) ∗ (((c : Thread nD τ).loc main_v1) ↦{fullShare.right} G 1)
          ∗ (((c : Thread nD τ).loc main_v3) ↦{fullShare} G 2)) := by
  have h : ((pdats m ρ 1 c).arrays G : sProp 𝕄)
      = bigSep Finset.univ fun w => (((c.tc : Thread nD τ).loc (Pipeline.arrRef (Pipeline.pin (pcfgs (F := F)) adm 1).spec w)) ↦{(pdats m ρ 1 c).share w} G w : sProp 𝕄) := by
    unfold Pipeline.Dat.arrays
    exact bigSep_congr fun w _ => by
      rw [(show ((Pipeline.pin (pcfgs (F := F)) adm 1).win w).arr.IsWhole from arr_whole1 w).set_eq_univ]
  rw [h, bigSep_W1]
  rfl

/-- ENTRY of the denominator kernel, the arrays' part: the core's unscoped buffers at `V2` are the kernel's three windows'
    arrays — the stacked array halved between the row and the column window, the output array whole — and the rest. -/
theorem entry1 (c : Dev nD) :
    (unscopedBufs c (V2 m ρ c) : sProp 𝕄) ⊢ iprop((pdats m ρ 1 c).arrays ((pdats m ρ 1 c).arrAt · 0)
      ∗ Pipeline.unscopedRest (Ix := Unit) (Name := ℕ) (U := UR sig nD τ) (Lvl := ℕ) spec1 c (V2 m ρ c)) := by
  rw [Pipeline.unscopedBufs_split₀ (Pipeline.pin (pcfgs (F := F)) adm) 1 winFacts₀1.arr_unscoped c (V2 m ρ c)]
  refine sep_mono ?_ .rfl
  rw [arrays1_eq]
  unfold Pipeline.arrBufs
  rw [bigSep_eq_bigSepL_of_eq [main_v1, main_v3]
    (show Finset.image (Pipeline.arrRef (Pipeline.pin (pcfgs (F := F)) adm 1).spec) Finset.univ = _ from arrs1_image) (by decide)]
  show iprop((((c : Thread nD τ).loc main_v1) ↦{fullShare} V2 m ρ c main_v1) ∗ (((c : Thread nD τ).loc main_v3) ↦{fullShare} V2 m ρ c main_v3))
    ⊢ (iprop((((c : Thread nD τ).loc main_v1) ↦{fullShare.left} V2 m ρ c main_v1) ∗ (((c : Thread nD τ).loc main_v1) ↦{fullShare.right} V2 m ρ c main_v1)
        ∗ (((c : Thread nD τ).loc main_v3) ↦{fullShare} V2 m ρ c main_v3)) : sProp 𝕄)
  iintro ⟨H1, H3⟩
  ihave H := (pointsTo_share (PosShare.mem_left_op_right fullShare)).1 $$ H1
  icases H with ⟨Ha, Hb⟩
  isplitl [Ha]; · iexact Ha
  isplitl [Hb]; · iexact Hb
  iexact H3

/-- EXIT of the denominator kernel, the arrays' part: the two halves of the stacked array joined, the output array at what
    the write-backs left, the rest as entered: the core's unscoped buffers at `V3`. -/
theorem exit1 (c : Dev nD) :
    iprop((pdats m ρ 1 c).arrays ((pdats m ρ 1 c).arrAt · cfg1.N)
      ∗ Pipeline.unscopedRest (Ix := Unit) (Name := ℕ) (U := UR sig nD τ) (Lvl := ℕ) spec1 c (V2 m ρ c))
    ⊢ (unscopedBufs c (V3 m ρ c) : sProp 𝕄) := by
  rw [Pipeline.unscopedBufs_split₀ (Pipeline.pin (pcfgs (F := F)) adm) 1 winFacts₀1.arr_unscoped c (V3 m ρ c)]
  refine sep_mono ?_ (Entails.of_eq ?_)
  · rw [arrays1_eq]
    unfold Pipeline.arrBufs
    rw [bigSep_eq_bigSepL_of_eq [main_v1, main_v3]
      (show Finset.image (Pipeline.arrRef (Pipeline.pin (pcfgs (F := F)) adm 1).spec) Finset.univ = _ from arrs1_image) (by decide)]
    have e0 : (pdats m ρ 1 c).arrAt 0 cfg1.N = V2 m ρ c main_v1 := ((pdats m ρ 1 c).arrAt_in 0 rfl _).trans rfl
    have e1 : (pdats m ρ 1 c).arrAt 1 cfg1.N = V2 m ρ c main_v1 := ((pdats m ρ 1 c).arrAt_in 1 rfl _).trans rfl
    have e2 : (pdats m ρ 1 c).arrAt 2 cfg1.N = V3 m ρ c main_v3 := (V3_main_v3 m ρ c).symm
    have e3 : V3 m ρ c main_v1 = V2 m ρ c main_v1 := V3_of_ne m ρ c main_v1 (by decide)
    show iprop((((c : Thread nD τ).loc main_v1) ↦{fullShare.left} (pdats m ρ 1 c).arrAt 0 cfg1.N)
        ∗ (((c : Thread nD τ).loc main_v1) ↦{fullShare.right} (pdats m ρ 1 c).arrAt 1 cfg1.N)
        ∗ (((c : Thread nD τ).loc main_v3) ↦{fullShare} (pdats m ρ 1 c).arrAt 2 cfg1.N))
      ⊢ (iprop((((c : Thread nD τ).loc main_v1) ↦{fullShare} V3 m ρ c main_v1) ∗ (((c : Thread nD τ).loc main_v3) ↦{fullShare} V3 m ρ c main_v3)) : sProp 𝕄)
    rw [e0, e1, e2, e3]
    iintro ⟨Ha, Hb, H3⟩
    ihave H := (pointsTo_share (PosShare.mem_left_op_right fullShare)).2 $$ [Ha Hb]
    · isplitl [Ha]; · iexact Ha
      iexact Hb
    isplitl [H]; · iexact H
    iexact H3
  · unfold Pipeline.unscopedRest
    exact bigSep_congr fun b hb => by
      have hne : b ≠ main_v3 := fun e => (Finset.mem_sdiff.mp hb).2 (e ▸ Finset.mem_image.mpr ⟨2, Finset.mem_univ _, rfl⟩)
      rw [V3_of_ne m ρ c b hne]

set_option backward.isDefEq.respectTransparency.types false in
/-- The denominator kernel over the thread state: entered from every unscoped buffer at `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and the
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Pf

end
-- ==== Proof.K.Ends.lean ====
/-
  The ends of the fold through @main, at any float instance. No host operation writes an argument and no kernel writes one
  (the first kernel reads them through input windows, whose arrays are never written back; the second does not touch them),
  so at the last boundary both arguments hold what they held at launch: with the run, that is the frame claim. And the
  result buffer at the last boundary is the ten closing host operations applied to the doubled positives `main_v2` and the
  denominators `main_v3` as the second kernel's exit leaves them.
-/
import proofs.«154075_j24962349924507_1_alg».proof.Proof.K.Run

set_option maxRecDepth 16384

noncomputable section

namespace Cert.Kernel.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The concatenations write neither argument. -/
theorem W2_of_arg (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.binary_writes, Finset.mem_singleton]
    exact ⟨StableHlo.devRef_ne_of_ne h1, StableHlo.devRef_ne_of_ne h2⟩))

/-- The closing host operations write only their own ten results. -/
theorem W4_of_notres (c : Dev nD) (b : Ref sig .tc)
    (h : b ∉ ([main_cst, main_v4, main_v5, main_v6, main_v7, main_v8, main_cst_0, main_v9, main_cst_1, main_v10] : List (Ref sig .tc))) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    simp only [List.mem_cons, List.not_mem_nil, or_false, not_or] at h
    obtain ⟨h0, h1, h2, h3, h4, h5, h6, h7, h8, h9⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-- The first argument ends as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_notres m ρ c main_arg0 (by decide)
    _ = W2 m ρ c (Proc.devRef .tc main_arg0) := V3_of_ne m ρ c main_arg0 (by decide)
    _ = W1 m ρ c (Proc.devRef .tc main_arg0) := W2_of_arg m ρ c main_arg0 (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The second argument ends as launched. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_notres m ρ c main_arg1 (by decide)
    _ = W2 m ρ c (Proc.devRef .tc main_arg1) := V3_of_ne m ρ c main_arg1 (by decide)
    _ = W1 m ρ c (Proc.devRef .tc main_arg1) := W2_of_arg m ρ c main_arg1 (by decide) (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-- THE FRAME, at any float instance: every weakly fair execution of @main terminates, nothing faulting, and the two
    argument arrays end holding what they held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.Kernel.Pf

end
-- ==== Proof.KI.Data.lean ====
/-
  The proof data of the two pipelined kernels, at any float instance and at any contents `V` of the core's buffers
  when the kernel is entered.

  Normalisation kernel (8 row tiles of 512 rows): at tile `t` the two input windows hold rows 512t … 512t+511 of the two
  embeddings; the body leaves in the three output windows the row-normalised tiles `x / max (‖x‖, ε)` (narrowed to bf16)
  and the 512 row-wise inner products of the two normalised tiles.

  Denominator kernel (16 row tiles × 8 column tiles, the column tile the fast axis): at point `t = 8·i + j` the row window
  holds rows 512i … of `z`, the column window rows 1024j … of the same `z`, and the 512-word output window, which is written
  back only after the last column tile, carries the running sum: at `j = 0` it is reset to zero first, so it ends the point at
  `0 + s(i, 0)`; at `j > 0` it ends at `(what point t − 1 left) + s(i, j)`, where `s(i, j)` is the row sum over the tile's
  1024 columns of `exp (2·⟨z_r, z_c⟩)` with the diagonal entries `r = c` replaced by zero.
-/
import proofs.«154075_j24962349924507_1_alg».proof.Proof.Gen.KernelIdeal.Launch
import proofs.«154075_j24962349924507_1_alg».proof.Proof.Gen.KernelIdeal.Skeleton
import proofs.«154075_j24962349924507_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The normalisation kernel -/

/-- Window `w`'s block at row tile `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After row tile `t`: the inputs' staging buffers still hold their tiles; the outputs' hold the two normalised tiles and
    the row-wise inner products of the normalised tiles. Whole arrays, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (iblk0 V c 0 t)
    | ⟨3, _⟩ => k0_pay5 (iblk0 V c 1 t)
    | ⟨4, _⟩ => k0_pay3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (iblk0 V c 0 t) := by dsimp only [dat0]
theorem after0_3 (c : Dev nD) (t : Fin cfg0.N) : (dat0 V c).after 3 t = k0_pay5 (iblk0 V c 1 t) := by dsimp only [dat0]
theorem after0_4 (c : Dev nD) (t : Fin cfg0.N) : (dat0 V c).after 4 t = k0_pay3 (iblk0 V c 0 t) (iblk0 V c 1 t) := by dsimp only [dat0]

/-! ## The denominator kernel -/

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the running row sums: `prev + s(i, j)` at the point's row and column tiles. -/
def step1 (c : Dev nD) (t : Fin cfg1.N) (prev : Vec F S512 .f32) : Vec F S512 .f32 :=
  k1_pay2 (grid1.coords t) (iblk1 V c 0 t) (iblk1 V c 1 t) prev

/-- The running row sums after point `n`: restarted from zero at the first column tile of a row tile (`n ≡ 0 mod 8`),
    continued from what point `n − 1` left otherwise. -/
def outsAt1 (c : Dev nD) : (n : ℕ) → n < cfg1.N → Vec F S512 .f32
  | 0, hn => step1 V c ⟨0, hn⟩ (k1_pay1 (F := F))
  | n + 1, hn =>
    if (n + 1) % 8 = 0 then step1 V c ⟨n + 1, hn⟩ (k1_pay1 (F := F))
    else step1 V c ⟨n + 1, hn⟩ (outsAt1 c n (Nat.lt_of_succ_lt hn))

/-- At the first column tile of a row tile the sum restarts from zero. -/
theorem outsAt1_first (c : Dev nD) (t : Fin cfg1.N) (h0 : t.val % 8 = 0) :
    outsAt1 V c t.val t.isLt = step1 V c t (k1_pay1 (F := F)) := by
  obtain ⟨n, hn⟩ := t
  cases n with
  | zero => rfl
  | succ n => exact (if_pos h0).trans rfl

/-- At a later column tile it continues from what the point before left. -/
theorem outsAt1_next (c : Dev nD) (t : Fin cfg1.N) (h0 : ¬t.val % 8 = 0) :
    outsAt1 V c t.val t.isLt = step1 V c t (outsAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- After point `t`: the row and column windows still hold their tiles of `z`; the output window holds the running row
    sums. The two input windows read ONE array, each holding half of it; the output array is held outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem share1_0 (c : Dev nD) : (dat1 V c).share 0 = fullShare.left := rfl
theorem share1_1 (c : Dev nD) : (dat1 V c).share 1 = fullShare.right := rfl
theorem share1_2 (c : Dev nD) : (dat1 V c).share 2 = fullShare := rfl

end Cert.KernelIdeal.Pf

end
-- ==== Proof.KI.Body0.lean ====
/-
  The normalisation kernel's body meets its proof data: entered with the two input windows' staging buffers at their row
  tiles, it leaves them unchanged and the three output windows' buffers at the normalised tiles and the row-wise inner
  products (the skeleton's payloads of the two tiles), at every one of the 8 grid points.
-/
import proofs.«154075_j24962349924507_1_alg».proof.Proof.KI.Data
import Idealize.ShloMosaic.Lib.Pipeline.Value

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers -/

/-- Input window 0's current staging buffer holds its row tile at every point: the window is fetched whole and the body
    leaves its tile in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1's likewise. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## Whole-buffer accesses

The body reads and writes every staging buffer through the rectangle that starts at offset zero and has the buffer's own
extents. Through it a load reads the buffer's contents, and one store leaves its payload whatever the buffer held. -/

section Whole

variable {sg : RefSig} {κ : Kind} {sp : Space} {S : Shape} {e : EltTy}

/-- A load through the whole-buffer rectangle at zero offsets reads the contents. -/
theorem readAt_whole (v : View sg κ sp S e) (f : v.ty.Contents (Elt F)) {off : Fin S.rank → Nat}
    (hz : off = fun _ => 0) (inb : ∀ a, off a + S.size a ≤ S.size a) :
    v.readAt (Elt F) (Rect.unit off S.size inb).toLoadRect f = v.read (Elt F) f := by
  rw [View.readAt_eq_ld, View.ld_unit_zero hz]

/-- One store of `p` through it leaves `p`: the rectangle holds every index, so nothing of the old contents is left. -/
theorem read_writes_whole (v : View sg κ sp S e) (f : v.ty.Contents (Elt F)) {off : Fin S.rank → Nat}
    (hz : off = fun _ => 0) (inb : ∀ a, off a + S.size a ≤ S.size a) (p : S.Idx → Elt F e) :
    v.read (Elt F) (v.writes (Elt F) f [⟨Rect.unit off S.size inb, p⟩]) = p := by
  rw [View.read_writes_eq_canon _ _ _
      (fun y => ⟨_, List.mem_singleton_self _, View.mem_set_unit_zero hz inb y⟩),
    View.canon_unit_zero hz]

end Whole

omit [FloatOps F] in
/-- The two-axis offset vector of the body's accesses is zero; -/
theorem off2_zero : (![0, 0] : Fin S512x512.rank → Nat) = fun _ => 0 := funext fun a => by fin_cases a <;> rfl

omit [FloatOps F] in
/-- and so is the one-axis one. -/
theorem off1_zero : (![0] : Fin S512.rank → Nat) = fun _ => 0 := funext fun a => by fin_cases a <;> rfl

/-! ## The body's triple -/

set_option maxHeartbeats 1000000 in
/-- The kernel body on whole staging memrefs, the two inputs' at read contents `x0`, `x1` and the three outputs' at
    anything, runs to the continuation holding the inputs' as they were and each output's at its payload of the inputs. -/
theorem sound_kernel0 (c : Dev nD) (E : Set ℕ) (i : grid0.Coords)
    (arg1 : Memref sig .tc .vmem S512x512 .f32) (harg1 : arg1.IsWhole)
    (arg2 : Memref sig .tc .vmem S512x512 .f32) (harg2 : arg2.IsWhole)
    (arg3 : Memref sig .tc .vmem S512x512 .bf16) (harg3 : arg3.IsWhole)
    (arg4 : Memref sig .tc .vmem S512x512 .bf16) (harg4 : arg4.IsWhole)
    (arg5 : Memref sig .tc .vmem S512 .f32) (harg5 : arg5.IsWhole)
    (x0 x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (k0_pay4 x0) ∗ owns (c : Thread nD τ) arg4 fullShare (k0_pay5 x1)
            ∗ owns (c : Thread nD τ) arg5 fullShare (k0_pay3 x0 x1)) -∗ K ⟨⟩))
      ⊢ wp frame (wpE (defs₀ (F := F)) Variants.none c none) E
          (cc0__normalize_kernel i arg1 harg1 arg2 harg2 arg3 harg3 arg4 harg4 arg5 harg5) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_writes_whole _ _ off2_zero, readAt_whole _ _ off2_zero]
  isplitl [H3]
  · iexists _; isplitr
    swap; · iexact H3
    ipureintro
    rw [read_writes_whole _ _ off2_zero, readAt_whole _ _ off2_zero]
  iexists _; isplitr
  swap; · iexact H4
  ipureintro
  rw [read_writes_whole _ _ off1_zero, readAt_whole _ _ off2_zero, readAt_whole _ _ off2_zero]

/-- The invariant does not depend on the point; -/
theorem Φ_next0 (c : Dev nD) (t : Fin cfg0.N) : (dat0 V c).Φ t.succ = (dat0 V c).Φ t.castSucc := by
  dsimp only [dat0]

/-- nor does what the core owes: nothing, at every point. -/
theorem owes_next0 (c : Dev nD) (t : Fin cfg0.N) :
    (dat0 V c).owesAt () t.succ = (dat0 V c).owesAt () t.castSucc := by
  unfold Dat.owesAt Dat.bound
  dsimp only [dat0]

/-! ## The body obligation, at a generic point -/

/-- What the body is called with at point `t`: the invariant, what the core owes, and the five windows' current staging
    buffers, one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the two inputs' buffers hold their row tiles, the three outputs' hold something, so the
    kernel's triple applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [Φ_next0, owes_next0,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the normalisation kernel, at every point. -/
theorem body_obligation0 (c : Dev nD) : BodyObligation (dat0 (F := F) V c) (defs₀ (F := F)) Variants.none () Set.univ := by
  intro t
  rw [bigSep_W0, bigSep_W0]
  exact sound_body0 V c t

end Cert.KernelIdeal.Pf

end
-- ==== Proof.KI.Body1.lean ====
/-
  The denominator kernel's body meets its proof data at each of the 128 grid points: with the row and column windows at
  their tiles of `z`, a point at the first column tile resets the output window to zero and then adds the tile's masked row
  sums; a later point finds in the output window what the point before left (the window is not written back in between) and
  adds its tile's sums to it.
-/
import proofs.«154075_j24962349924507_1_alg».proof.Proof.KI.Data
import Idealize.ShloMosaic.Lib.Pipeline.Value

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch condition -/

/-- The condition of the body's one conditional, from the grid coordinates: the column tile is the first. -/
abbrev cond1 (i : grid1.Coords) : Prop :=
  (Scalar.cmpi .ne (Scalar.extui (Scalar.cmpi .eq (BitVec.ofNat 32 (i 1).val) 0#32)) 0#32) = 1#1

/-- It holds exactly at the points `t ≡ 0 (mod 8)`: decided over the grid. -/
theorem hcond1 : ∀ t : Fin cfg1.N, cond1 (grid1.coords t) ↔ t.val % 8 = 0 :=
  (by decide +kernel : ∀ t : Fin grid1.N, cond1 (grid1.coords t) ↔ t.val % 8 = 0)

/-! ## Whole-buffer loads and stores -/

theorem hz1 : (![0] : Fin 1 → Nat) = fun _ => 0 := funext fun a => by fin_cases a <;> rfl
theorem hz2 : (![0, 0] : Fin 2 → Nat) = fun _ => 0 := funext fun a => by fin_cases a <;> rfl

/-- A list of stores whose last is of the whole output buffer covers it. -/
theorem cover1 (w : S512.Idx → Elt F .f32) (L : List (View.Piece (Elt F) S512 .f32)) (y : S512.Idx) :
    ∃ p ∈ ((⟨Rect.unit ![0] S512.size inb_S512_S512_0, w⟩ : View.Piece (Elt F) S512 .f32) :: L), y ∈ p.1.set := by
  refine ⟨_, List.mem_cons_self, ?_⟩
  exact View.mem_set_unit_zero (S := S512) hz1 inb_S512_S512_0 y

/-- A store of the whole output buffer, made last, leaves its payload whatever was stored before. -/
theorem read_store_last {sg : RefSig} {κ : Kind} {sp : Space} (v : View sg κ sp S512 .f32) (f : v.ty.Contents (Elt F))
    (w : S512.Idx → Elt F .f32) (L : List (View.Piece (Elt F) S512 .f32)) :
    v.read (Elt F) (v.writes (Elt F) f ((⟨Rect.unit ![0] S512.size inb_S512_S512_0, w⟩ : View.Piece (Elt F) S512 .f32) :: L)) = w := by
  rw [View.read_writes_eq_canon v f _ (cover1 w L)]
  exact View.canon_cons_unit_zero (S := S512) hz1 inb_S512_S512_0 w L

/-- A load of the whole row-tile buffer reads its contents. -/
theorem load_whole0 (m : Memref sig .tc .vmem S512x512 .bf16) (h : m.IsWhole) (x : Vec F S512x512 .bf16) :
    View.readAt (Elt F) m.view (Rect.unit ![0, 0] S512x512.size inb_S512x512_S512x512_0_0).toLoadRect (h.unread x) = x := by
  rw [View.readAt_eq_ld, h.read_unread, View.ld_unit_zero (S := S512x512) hz2]

/-- A load of the whole column-tile buffer reads its contents. -/
theorem load_whole1 (m : Memref sig .tc .vmem S1024x512 .bf16) (h : m.IsWhole) (x : Vec F S1024x512 .bf16) :
    View.readAt (Elt F) m.view (Rect.unit ![0, 0] S1024x512.size inb_S1024x512_S1024x512_0_0).toLoadRect (h.unread x) = x := by
  rw [View.readAt_eq_ld, h.read_unread, View.ld_unit_zero (S := S1024x512) hz2]

/-- A load of the whole output buffer reads its contents. -/
theorem load_whole2 (m : Memref sig .tc .vmem S512 .f32) (h : m.IsWhole) (x : Vec F S512 .f32) :
    View.readAt (Elt F) m.view (Rect.unit ![0] S512.size inb_S512_S512_0).toLoadRect (h.unread x) = x := by
  rw [View.readAt_eq_ld, h.read_unread, View.ld_unit_zero (S := S512) hz1]

/-! ## The body on any whole staging memrefs -/

set_option maxHeartbeats 1000000 in
/-- At the first column tile: the output buffer, whatever it held, is zeroed, read back and left at the tile's masked row
    sums added to zero; the inputs' buffers are left as found. -/
theorem run_first (c : Dev nD) (i : grid1.Coords)
    (arg2 : Memref sig .tc .vmem S512x512 .bf16) (harg2 : arg2.IsWhole)
    (arg3 : Memref sig .tc .vmem S1024x512 .bf16) (harg3 : arg3.IsWhole)
    (arg4 : Memref sig .tc .vmem S512 .f32) (harg4 : arg4.IsWhole) (hc : cond1 i)
    (x0 : Vec F S512x512 .bf16) (x1 : Vec F S1024x512 .bf16) (E : Set ℕ) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay2 i x0 x1 (k1_pay1 (F := F)))) -∗ K ⟨⟩))
      ⊢ wp frame (wpE (defs₀ (F := F)) Variants.none c none) E (cc1__denom_kernel i arg2 harg2 arg3 harg3 arg4 harg4) K := by
  simp only [cc1__denom_kernel_eq_skeleton]; unfold cc1__denom_kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  refine (read_store_last _ _ _ _).trans ?_
  sl_unfold_words
  rw [load_whole0, load_whole1, View.readCov_unit_zero (S := S512) _ hz1]

set_option maxHeartbeats 1000000 in
/-- At a later column tile: no reset; the output buffer, holding `prev`, is read and left at the tile's masked row sums
    added to `prev`; the inputs' buffers are left as found. -/
theorem run_next (c : Dev nD) (i : grid1.Coords)
    (arg2 : Memref sig .tc .vmem S512x512 .bf16) (harg2 : arg2.IsWhole)
    (arg3 : Memref sig .tc .vmem S1024x512 .bf16) (harg3 : arg3.IsWhole)
    (arg4 : Memref sig .tc .vmem S512 .f32) (harg4 : arg4.IsWhole) (hc : ¬cond1 i)
    (x0 : Vec F S512x512 .bf16) (x1 : Vec F S1024x512 .bf16) (prev : Vec F S512 .f32) (E : Set ℕ) (K : PUnit → sProp 𝕄) :
    iprop(owns (c : Thread nD τ) arg2 fullShare x0 ∗ owns (c : Thread nD τ) arg3 fullShare x1
        ∗ owns (c : Thread nD τ) arg4 fullShare prev
        ∗ (iprop(owns (c : Thread nD τ) arg2 fullShare x0 ∗ owns (c : Thread nD τ) arg3 fullShare x1
            ∗ owns (c : Thread nD τ) arg4 fullShare (k1_pay2 i x0 x1 prev)) -∗ K ⟨⟩))
      ⊢ wp frame (wpE (defs₀ (F := F)) Variants.none c none) E (cc1__denom_kernel i arg2 harg2 arg3 harg3 arg4 harg4) K := by
  simp only [cc1__denom_kernel_eq_skeleton]; unfold cc1__denom_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  refine (read_store_last _ _ _ _).trans ?_
  sl_unfold_words
  rw [load_whole0, load_whole1, load_whole2]

/-! ## What the staging buffers hold when the body is called -/

/-- The row window's current buffer holds its tile at every point, fetched there or not (the tile index has not moved
    where it is not fetched). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The column window's current buffer holds its tile at every point. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- At a later column tile the output window's current buffer holds what the point before left: the point is not the
    first, the buffer was not written back in between (that happens after the last column tile only), and the window is
    uncut. -/
theorem before1_2_next (c : Dev nD) (t : Fin cfg1.N) (h0 : ¬t.val % 8 = 0) (d) :
    (dat1 V c).before 2 t d = outsAt1 V c (t.val - 1) (Nat.lt_of_le_of_lt (Nat.sub_le _ _) t.isLt) := by
  have hN : t.val < 128 := lt_of_lt_of_eq t.isLt (show cfg1.N = 128 from N_1)
  rw [Dat.before_out_kept _ 2 rfl t (by omega)
    (Bool.eq_false_iff.mpr fun h => by have := (flush1_2 _).mp h; dsimp only at this; omega)
    (fun _ => rfl) (fun _ _ => rfl)]
  exact after1_2 V c _

/-! ## The body obligation, at a generic point -/

/-- Each window's current staging memref at point `t`, as the pipeline passes it to the body, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512 .f32 := win1_2.stage (cfg1.slots t 2)
abbrev hs1_2 (t : Fin cfg1.N) : (ms1_2 t).IsWhole := hstage1_2 ((cfg1.slots t 2).cast nbuf1_2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' buffers hold their tiles; the condition's closed form says which case the point is
    in; at a later column tile the output buffer holds what the point before left; so the matching run applies. The
    invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [outsAt1_first V c t h0]
    unfold step1
    iintro ⟨HΦ, Ho, ⟨%d0, H0⟩, ⟨%d1, H1⟩, ⟨%d2, H2⟩⟩
    iapply (run_first c (grid1.coords t) _ _ _ _ _ _ ((hcond1 t).mpr h0) (iblk1 V c 0 t) (iblk1 V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_next V c t h0]
    simp only [before1_2_next V c t h0]
    unfold step1
    iintro ⟨HΦ, Ho, ⟨%d0, H0⟩, ⟨%d1, H1⟩, ⟨%d2, H2⟩⟩
    iapply (run_next c (grid1.coords t) _ _ _ _ _ _ (fun h => h0 ((hcond1 t).mp h)) (iblk1 V c 0 t) (iblk1 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation for the denominator kernel, at every point. -/
theorem body_obligation1 (c : Dev nD) : BodyObligation (dat1 (F := F) V c) (defs₀ (F := F)) Variants.none () Set.univ := by
  intro t
  rw [bigSep_W1, bigSep_W1]
  exact sound_body1 V c t

end Cert.KernelIdeal.Pf

end
-- ==== Proof.KI.Run.lean ====
/-
  The whole program, at any float instance: @main is the normalisation kernel, two concatenations, the denominator kernel
  and ten host operations. The contents of the core's buffers at each of the four boundaries are a fold from the launch
  memory: after the first kernel its three output arrays hold what its write-backs leave; after the concatenations the
  stacked array and the doubled positives are the host operations' results; after the second kernel its output array holds
  what its write-backs leave; after the last host operations the result is their term. Every weakly fair execution
  terminates, and the final memory holds every unscoped buffer at the last boundary's contents — the arguments, which no
  kernel writes and no host operation writes, as launched.

  The second kernel reads ONE array, the stacked `z`, through two input windows: at its entry the array's full share is
  halved between the two windows, and at its exit, both windows still holding the array as entered, the halves are joined.
-/
import proofs.«154075_j24962349924507_1_alg».proof.Proof.KI.Body0
import proofs.«154075_j24962349924507_1_alg».proof.Proof.KI.Body1

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the first kernel's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first kernel: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two concatenations: the second kernel's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second kernel: its output array at what its write-backs leave, every other buffer as entered. -/
abbrev W3 : Dev nD → Valuation τ sig (Elt F) := fun c =>
  Function.update (W2 m ρ c) main_v3 ((dat1 (V2 m ρ) c).arrAt 2 cfg1.N)
abbrev V3 : (c : Dev nD) → (b : Ref sig .tc) → Buf (Elt F) ((c : Thread nD τ).loc b) := fun c b => W3 m ρ c b
/-- After the last host operations: the end. -/
abbrev W4 : Dev nD → Valuation τ sig (Elt F) := fun c => StableHlo.after hostOps2 (W3 m ρ c)

theorem V3_main_v3 (c : Dev nD) : V3 m ρ c main_v3 = (dat1 (V2 m ρ) c).arrAt 2 cfg1.N := Function.update_self ..
theorem V3_of_ne (c : Dev nD) (b : Ref sig .tc) (hb : b ≠ main_v3) : V3 m ρ c b = V2 m ρ c b :=
  Function.update_of_ne (StableHlo.devRef_ne_of_ne hb) ..

/-! ## The proof data family and the thread state -/

abbrev adm : (p : Fin 2) → (pcfgs (F := F) p).Adm := fun p => (cfgs p).toPCfg_adm
/-- Each kernel's proof data at its own entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- The normalisation kernel over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem arrs1_image : Finset.image (Pipeline.arrRef spec1) Finset.univ = ([main_v1, main_v3] : List (Ref sig .tc)).toFinset := by decide

/-- The denominator kernel's three windows' arrays, window by window: the stacked array at the row window's half and at
    the column window's half, the output array outright. -/
theorem arrays1_eq (c : Dev nD) (G : (w : Fin (Pipeline.pin (pcfgs (F := F)) adm 1).W) →
      Buf (Elt F) (((Pipeline.pin (pcfgs (F := F)) adm 1).spec w).arr.view.loc (c.tc : Thread nD τ))) :
    ((pdats m ρ 1 c).arrays G : sProp 𝕄)
      = iprop((((c : Thread nD τ).loc main_v1) ↦{fullShare.left} G 0) ∗ (((c : Thread nD τ).loc main_v1) ↦{fullShare.right} G 1)
          ∗ (((c : Thread nD τ).loc main_v3) ↦{fullShare} G 2)) := by
  have h : ((pdats m ρ 1 c).arrays G : sProp 𝕄)
      = bigSep Finset.univ fun w => (((c.tc : Thread nD τ).loc (Pipeline.arrRef (Pipeline.pin (pcfgs (F := F)) adm 1).spec w)) ↦{(pdats m ρ 1 c).share w} G w : sProp 𝕄) := by
    unfold Pipeline.Dat.arrays
    exact bigSep_congr fun w _ => by
      rw [(show ((Pipeline.pin (pcfgs (F := F)) adm 1).win w).arr.IsWhole from arr_whole1 w).set_eq_univ]
  rw [h, bigSep_W1]
  rfl

/-- ENTRY of the denominator kernel, the arrays' part: the core's unscoped buffers at `V2` are the kernel's three windows'
    arrays — the stacked array halved between the row and the column window, the output array whole — and the rest. -/
theorem entry1 (c : Dev nD) :
    (unscopedBufs c (V2 m ρ c) : sProp 𝕄) ⊢ iprop((pdats m ρ 1 c).arrays ((pdats m ρ 1 c).arrAt · 0)
      ∗ Pipeline.unscopedRest (Ix := Unit) (Name := ℕ) (U := UR sig nD τ) (Lvl := ℕ) spec1 c (V2 m ρ c)) := by
  rw [Pipeline.unscopedBufs_split₀ (Pipeline.pin (pcfgs (F := F)) adm) 1 winFacts₀1.arr_unscoped c (V2 m ρ c)]
  refine sep_mono ?_ .rfl
  rw [arrays1_eq]
  unfold Pipeline.arrBufs
  rw [bigSep_eq_bigSepL_of_eq [main_v1, main_v3]
    (show Finset.image (Pipeline.arrRef (Pipeline.pin (pcfgs (F := F)) adm 1).spec) Finset.univ = _ from arrs1_image) (by decide)]
  show iprop((((c : Thread nD τ).loc main_v1) ↦{fullShare} V2 m ρ c main_v1) ∗ (((c : Thread nD τ).loc main_v3) ↦{fullShare} V2 m ρ c main_v3))
    ⊢ (iprop((((c : Thread nD τ).loc main_v1) ↦{fullShare.left} V2 m ρ c main_v1) ∗ (((c : Thread nD τ).loc main_v1) ↦{fullShare.right} V2 m ρ c main_v1)
        ∗ (((c : Thread nD τ).loc main_v3) ↦{fullShare} V2 m ρ c main_v3)) : sProp 𝕄)
  iintro ⟨H1, H3⟩
  ihave H := (pointsTo_share (PosShare.mem_left_op_right fullShare)).1 $$ H1
  icases H with ⟨Ha, Hb⟩
  isplitl [Ha]; · iexact Ha
  isplitl [Hb]; · iexact Hb
  iexact H3

/-- EXIT of the denominator kernel, the arrays' part: the two halves of the stacked array joined, the output array at what
    the write-backs left, the rest as entered: the core's unscoped buffers at `V3`. -/
theorem exit1 (c : Dev nD) :
    iprop((pdats m ρ 1 c).arrays ((pdats m ρ 1 c).arrAt · cfg1.N)
      ∗ Pipeline.unscopedRest (Ix := Unit) (Name := ℕ) (U := UR sig nD τ) (Lvl := ℕ) spec1 c (V2 m ρ c))
    ⊢ (unscopedBufs c (V3 m ρ c) : sProp 𝕄) := by
  rw [Pipeline.unscopedBufs_split₀ (Pipeline.pin (pcfgs (F := F)) adm) 1 winFacts₀1.arr_unscoped c (V3 m ρ c)]
  refine sep_mono ?_ (Entails.of_eq ?_)
  · rw [arrays1_eq]
    unfold Pipeline.arrBufs
    rw [bigSep_eq_bigSepL_of_eq [main_v1, main_v3]
      (show Finset.image (Pipeline.arrRef (Pipeline.pin (pcfgs (F := F)) adm 1).spec) Finset.univ = _ from arrs1_image) (by decide)]
    have e0 : (pdats m ρ 1 c).arrAt 0 cfg1.N = V2 m ρ c main_v1 := ((pdats m ρ 1 c).arrAt_in 0 rfl _).trans rfl
    have e1 : (pdats m ρ 1 c).arrAt 1 cfg1.N = V2 m ρ c main_v1 := ((pdats m ρ 1 c).arrAt_in 1 rfl _).trans rfl
    have e2 : (pdats m ρ 1 c).arrAt 2 cfg1.N = V3 m ρ c main_v3 := (V3_main_v3 m ρ c).symm
    have e3 : V3 m ρ c main_v1 = V2 m ρ c main_v1 := V3_of_ne m ρ c main_v1 (by decide)
    show iprop((((c : Thread nD τ).loc main_v1) ↦{fullShare.left} (pdats m ρ 1 c).arrAt 0 cfg1.N)
        ∗ (((c : Thread nD τ).loc main_v1) ↦{fullShare.right} (pdats m ρ 1 c).arrAt 1 cfg1.N)
        ∗ (((c : Thread nD τ).loc main_v3) ↦{fullShare} (pdats m ρ 1 c).arrAt 2 cfg1.N))
      ⊢ (iprop((((c : Thread nD τ).loc main_v1) ↦{fullShare} V3 m ρ c main_v1) ∗ (((c : Thread nD τ).loc main_v3) ↦{fullShare} V3 m ρ c main_v3)) : sProp 𝕄)
    rw [e0, e1, e2, e3]
    iintro ⟨Ha, Hb, H3⟩
    ihave H := (pointsTo_share (PosShare.mem_left_op_right fullShare)).2 $$ [Ha Hb]
    · isplitl [Ha]; · iexact Ha
      iexact Hb
    isplitl [H]; · iexact H
    iexact H3
  · unfold Pipeline.unscopedRest
    exact bigSep_congr fun b hb => by
      have hne : b ≠ main_v3 := fun e => (Finset.mem_sdiff.mp hb).2 (e ▸ Finset.mem_image.mpr ⟨2, Finset.mem_univ _, rfl⟩)
      rw [V3_of_ne m ρ c b hne]

set_option backward.isDefEq.respectTransparency.types false in
/-- The denominator kernel over the thread state: entered from every unscoped buffer at `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and the
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Pf

end
-- ==== Proof.KI.Ends.lean ====
/-
  The ends of the fold through @main, at any float instance. No host operation writes an argument and no kernel writes one
  (the first kernel reads them through input windows, whose arrays are never written back; the second does not touch them),
  so at the last boundary both arguments hold what they held at launch: with the run, that is the frame claim. And the
  result buffer at the last boundary is the ten closing host operations applied to the doubled positives `main_v2` and the
  denominators `main_v3` as the second kernel's exit leaves them.
-/
import proofs.«154075_j24962349924507_1_alg».proof.Proof.KI.Run

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The concatenations write neither argument. -/
theorem W2_of_arg (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.binary_writes, Finset.mem_singleton]
    exact ⟨StableHlo.devRef_ne_of_ne h1, StableHlo.devRef_ne_of_ne h2⟩))

/-- The closing host operations write only their own ten results. -/
theorem W4_of_notres (c : Dev nD) (b : Ref sig .tc)
    (h : b ∉ ([main_cst, main_v4, main_v5, main_v6, main_v7, main_v8, main_cst_0, main_v9, main_cst_1, main_v10] : List (Ref sig .tc))) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    simp only [List.mem_cons, List.not_mem_nil, or_false, not_or] at h
    obtain ⟨h0, h1, h2, h3, h4, h5, h6, h7, h8, h9⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-- The first argument ends as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_notres m ρ c main_arg0 (by decide)
    _ = W2 m ρ c (Proc.devRef .tc main_arg0) := V3_of_ne m ρ c main_arg0 (by decide)
    _ = W1 m ρ c (Proc.devRef .tc main_arg0) := W2_of_arg m ρ c main_arg0 (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The second argument ends as launched. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_notres m ρ c main_arg1 (by decide)
    _ = W2 m ρ c (Proc.devRef .tc main_arg1) := V3_of_ne m ρ c main_arg1 (by decide)
    _ = W1 m ρ c (Proc.devRef .tc main_arg1) := W2_of_arg m ρ c main_arg1 (by decide) (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-- THE FRAME, at any float instance: every weakly fair execution of @main terminates, nothing faulting, and the two
    argument arrays end holding what they held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.KernelIdeal.Pf

end
-- ==== Proof.Spec.lean ====
/-
  The mathematics both programs compute, entry by entry, on the extended reals.

  For two embeddings `xi, xj` (4096 rows of 512 reals each):
  * `unit x a d = x[a,d] / max (√(∑ₖ x[a,k]²), ε)`: row `a` of `x` scaled to unit length, the length clamped below by `ε`;
  * `stack`: the 8192 × 512 array `z` whose first 4096 rows are the rows of the first argument and whose last 4096 those of the second;
  * `pos xi xj a = ∑_d unit xi a d · unit xj a d`, and `pos2` the 8192 values `pos` twice over;
  * for any 8192 × 512 array `Z`: `gram Z r c = ∑_d Z[r,d] · Z[c,d]`, and the denominator of row `r` in two arrangements —
      `denTiled Z r = ∑_{j < 8} ∑_{c' < 1024} (if r = 1024 j + c' then 0 else exp (gram Z r (1024 j + c') · 2))`   (column tile by column tile),
      `denFlat  Z r = ∑_{c < 8192} (1 − [r = c]) · exp (gram Z r c / ½)`                                         (one sum with a 0/1 mask);
  * `tail p2 den = (0 + ∑_r −(p2 r / ½ − log (den r))) / 8192`, the host operations both programs end with.

  The two arrangements of the denominator are equal for EVERY `Z`, infinite entries included: dividing by ½ is multiplying
  by 2 on every extended real; `(1 − 1)·e = 0·e = 0` and `(1 − 0)·e = e` for every extended real `e`; and a sum over 8192
  columns is the sum over 8 tiles of the sums over each tile's 1024 columns, addition of extended reals being commutative
  and associative.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- An embedding: 4096 rows of 512 extended reals. -/
abbrev Emb : Type := (⟨2, ![4096, 512]⟩ : Shape).Idx → EReal
/-- The stacked array: 8192 rows of 512. -/
abbrev Emb2 : Type := (⟨2, ![8192, 512]⟩ : Shape).Idx → EReal

/-- The clamp `ε` of a row's length (the f32 nearest 10⁻¹², as both programs spell it). -/
def eps : EReal := Ideal.ofBits .f32 0x2B8CBCCC#32
/-- The temperature ½. -/
def half : EReal := Ideal.ofBits .f32 0x3F000000#32
/-- Its reciprocal 2. -/
def two : EReal := Ideal.ofBits .f32 0x40000000#32
/-- The literal 1 of the reference's mask. -/
def one : EReal := Ideal.ofBits .f32 0x3F800000#32

/-- Row `a`'s Euclidean length, clamped below by `ε`. -/
def len (x : Emb) (a : Fin 4096) : EReal := max (Ideal.sqrt (∑ k : Fin 512, x (ix2 a k) * x (ix2 a k))) eps
/-- Row `a` scaled to unit length. -/
def unit (x : Emb) (a : Fin 4096) (d : Fin 512) : EReal := Ideal.div (x (ix2 a d)) (len x a)
/-- The two scaled embeddings stacked: rows 0 … 4095 from `xi`, rows 4096 … 8191 from `xj`. -/
def stack (xi xj : Emb) (r : Fin 8192) (d : Fin 512) : EReal :=
  if h : r.val < 4096 then unit xi ⟨r.val, h⟩ d else unit xj ⟨r.val - 4096, by omega⟩ d
/-- The same as an array. -/
def stackArr (xi xj : Emb) : Emb2 := fun i => stack xi xj (i 0) (i 1)
/-- The inner product of the two scaled rows `a`. -/
def pos (xi xj : Emb) (a : Fin 4096) : EReal := ∑ d : Fin 512, unit xi a d * unit xj a d
/-- The positives, once per stacked row. -/
def pos2 (xi xj : Emb) (r : Fin 8192) : EReal :=
  if h : r.val < 4096 then pos xi xj ⟨r.val, h⟩ else pos xi xj ⟨r.val - 4096, by omega⟩

/-- The Gram entry of rows `r` and `c`. -/
def gram (Z : Emb2) (r c : Fin 8192) : EReal := ∑ d : Fin 512, Z (ix2 r d) * Z (ix2 c d)
/-- One entry of the masked exponentials, the diagonal replaced by zero. -/
def termSel (Z : Emb2) (r c : Fin 8192) : EReal := if r = c then 0 else Ideal.exp (gram Z r c * two)
/-- The same entry as the reference spells it: a 0/1 mask times the exponential of the quotient by ½. -/
def termMask (Z : Emb2) (r c : Fin 8192) : EReal :=
  (one - (if r = c then (1 : EReal) else 0)) * Ideal.exp (Ideal.div (gram Z r c) half)
/-- Column `c'` of column tile `j`. -/
def col (j : Fin 8) (c' : Fin 1024) : Fin 8192 := ⟨1024 * j.val + c'.val, by omega⟩
/-- The denominator of row `r`, column tile by column tile. -/
def denTiled (Z : Emb2) (r : Fin 8192) : EReal := ∑ j : Fin 8, ∑ c' : Fin 1024, termSel Z r (col j c')
/-- The denominator of row `r`, one sum over all columns. -/
def denFlat (Z : Emb2) (r : Fin 8192) : EReal := ∑ c : Fin 8192, termMask Z r c

/-- The host operations both programs end with, as ONE function of the positives and the denominators:
    `(0 + ∑_r −(p2 r / ½ − log (den r))) / 8192`. -/
def tail (hb : (⟨0, ![]⟩ : Shape).BroadcastsInDim ⟨1, ![8192]⟩ (![] : Fin 0 → Fin 1))
    (hr : (⟨1, ![8192]⟩ : Shape).ReducesTo [0] ⟨0, ![]⟩) (h0 : 0 < (⟨0, ![]⟩ : Shape).numel)
    (p2 den : FVec Ideal ⟨1, ![8192]⟩ .f32) : FVec Ideal ⟨0, ![]⟩ .f32 :=
  Host.divf
    (Host.reduceAdd
      (Host.negf (subf (Host.divf p2 (broadcastInDim ⟨1, ![8192]⟩ ![] hb (constant (F := Ideal) ⟨0, ![]⟩ .f32 0x3F000000#32))) (Host.log den)))
      (constant (F := Ideal) ⟨0, ![]⟩ .f32 0x00000000#32) hr h0)
    (constant (F := Ideal) ⟨0, ![]⟩ .f32 0x46000000#32)

/-! ## The law joining the two arrangements -/

/-- The pattern of the mask's literal denotes `1`. -/
theorem one_eq : one = (1 : EReal) := by
  unfold one
  simp [Ideal.ofBits, Ideal.ieee, -EReal.coe_mul]; norm_num

/-- The pattern of the temperature denotes the real `1/2`. -/
theorem half_eq : half = ((1 / 2 : ℝ) : EReal) := by
  unfold half
  simp [Ideal.ofBits, Ideal.ieee, -EReal.coe_mul]; norm_num

/-- The pattern of its reciprocal denotes the real `2`. -/
theorem two_eq : two = ((2 : ℝ) : EReal) := by
  unfold two
  simp [Ideal.ofBits, Ideal.ieee, -EReal.coe_mul]; norm_num

/-- Dividing by ½ is multiplying by 2, at the infinities too. -/
theorem div_half (g : EReal) : Ideal.div g half = g * two := by
  rw [half_eq, two_eq, Ideal.div_coe (by norm_num) g]
  norm_num

/-- On the diagonal the mask is `1 − 1 = 0`, and `0 · e = 0` for every extended real `e`. -/
theorem one_sub_one_mul (e : EReal) : ((1 : EReal) - 1) * e = 0 := by
  have h : (1 : EReal) - 1 = 0 := by
    rw [← EReal.coe_one, ← EReal.coe_sub, sub_self, EReal.coe_zero]
  rw [h, zero_mul]

/-- Off the diagonal the mask is `1 − 0 = 1`, and `1 · e = e` for every extended real `e`. -/
theorem one_sub_zero_mul (e : EReal) : ((1 : EReal) - 0) * e = e := by
  rw [sub_zero, one_mul]

/-- Entry by entry the two spellings agree, on every extended real. -/
theorem termSel_eq_termMask (Z : Emb2) (r c : Fin 8192) : termSel Z r c = termMask Z r c := by
  unfold termSel termMask
  rw [one_eq, div_half]
  by_cases h : r = c
  · rw [if_pos h, if_pos h, one_sub_one_mul]
  · rw [if_neg h, if_neg h, one_sub_zero_mul]

/-- The column tiles partition the columns. -/
theorem sum_cols (f : Fin 8192 → EReal) : (∑ j : Fin 8, ∑ c' : Fin 1024, f (col j c')) = ∑ c : Fin 8192, f c := by
  -- the double sum is a sum over pairs `(j, c')`, and `(j, c') ↦ 1024 j + c'` is a bijection onto the columns
  rw [← Fintype.sum_prod_type']
  refine Fintype.sum_equiv (finProdFinEquiv (m := 8) (n := 1024)) _ _ ?_
  rintro ⟨j, c'⟩
  congr 1
  apply Fin.ext
  simp [col, finProdFinEquiv]
  omega

/-- The denominator does not depend on the arrangement. -/
theorem denTiled_eq_denFlat (Z : Emb2) (r : Fin 8192) : denTiled Z r = denFlat Z r := by
  unfold denTiled denFlat
  rw [sum_cols (fun c => termSel Z r c)]
  exact Finset.sum_congr rfl fun c _ => termSel_eq_termMask Z r c

end Cert.Spec

end
-- ==== Proof.Val0.lean ====
/-
  What the normalisation kernel leaves in its three output arrays, on the extended reals: the 8 row tiles tile the 4096
  rows, and tile `t` writes rows 512t … 512t+511, so entry `(a, d)` of the first two outputs is row `a` of the corresponding
  embedding scaled to unit length (narrowing to bf16 is the identity here), and entry `a` of the third is the inner product
  of the two scaled rows `a`.
-/
import proofs.«154075_j24962349924507_1_alg».proof.Proof.KI.Data
import proofs.«154075_j24962349924507_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! Each tile's write-back as a block of the whole-array function: the payloads at an index, the blocks of a tile, and the
    cover of each output by the 8 tiles. -/

namespace Norm

/-! ## Layout steps of a row sum kept as a column -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The payloads at an index -/

/-- Row `p` of a `[512, 512]` block with the lane coordinate `k` put back. -/
theorem lift_row (h : S512x512.Reduces [1] S512) (p k : Fin 512) : h.lift (ix1 p) k = ix2 p k := by
  funext a
  match a with
  | ⟨0, _⟩ => exact Fin.ext rfl
  | ⟨1, _⟩ => exact Fin.ext rfl

/-- The lane sum of a `[512, 512]` block at row `p` is the sum of the row's 512 entries. -/
theorem rowsum_apply (v : FVec Ideal S512x512 .f32) (h : S512x512.Reduces [1] S512) (hφ : FKind.Formats .f32)
    (hacc : (0x00000000#32 : BitVec 32) = FKind.add.neutral .f32 hφ) (p : Fin 512) :
    multiReduction .add [1] S512 v 0x00000000#32 h hφ hacc (ix1 p) = ∑ k : Fin 512, v (ix2 p k) :=
  (Ideal.multiReduction_add_single v _ h hφ hacc (ix1 p)).trans
    (Finset.sum_congr rfl fun k _ => congrArg v (lift_row h p k))

/-- The first normalised tile at `(p, q)`: the entry over the row's length, the length clamped below by `ε`. -/
theorem pay1_apply (x : Vec Ideal S512x512 .f32) (p q : Fin 512) :
    k0_pay1 x (ix2 p q)
      = Ideal.div (x (ix2 p q)) (max (Ideal.sqrt (∑ k : Fin 512, x (ix2 p k) * x (ix2 p k))) Cert.Spec.eps) := by
  unfold k0_pay1
  refine (divf_apply _ _ _).trans ?_
  refine congrArg (Ideal.div (x (ix2 p q))) ?_
  refine (broadcastTo_a1_ab_apply _ _ p q).trans ?_
  refine (maximumf_apply _ _ _).trans ?_
  refine congrArg₂ max ?_ ?_
  · show Ideal.sqrt (shapeCast S512x1 _ _ (ix2 p (0 : Fin 1))) = _
    refine congrArg Ideal.sqrt ?_
    refine (shapeCast_a_a1_apply _ _ p 0).trans ?_
    exact rowsum_apply _ _ _ _ p
  · rfl

/-- The second normalised tile at `(p, q)`: the same function of the second block. -/
theorem pay2_apply (x : Vec Ideal S512x512 .f32) (p q : Fin 512) :
    k0_pay2 x (ix2 p q)
      = Ideal.div (x (ix2 p q)) (max (Ideal.sqrt (∑ k : Fin 512, x (ix2 p k) * x (ix2 p k))) Cert.Spec.eps) := by
  unfold k0_pay2
  refine (divf_apply _ _ _).trans ?_
  refine congrArg (Ideal.div (x (ix2 p q))) ?_
  refine (broadcastTo_a1_ab_apply _ _ p q).trans ?_
  refine (maximumf_apply _ _ _).trans ?_
  refine congrArg₂ max ?_ ?_
  · show Ideal.sqrt (shapeCast S512x1 _ _ (ix2 p (0 : Fin 1))) = _
    refine congrArg Ideal.sqrt ?_
    refine (shapeCast_a_a1_apply _ _ p 0).trans ?_
    exact rowsum_apply _ _ _ _ p
  · rfl

/-- Narrowing to bf16 changes no extended real: the stored first tile is the normalised one. -/
theorem pay4_apply (x : Vec Ideal S512x512 .f32) (j : S512x512.Idx) : k0_pay4 x j = k0_pay1 x j := rfl

/-- Likewise the stored second tile. -/
theorem pay5_apply (x : Vec Ideal S512x512 .f32) (j : S512x512.Idx) : k0_pay5 x j = k0_pay2 x j := rfl

/-- The row-wise inner products of the two normalised tiles, at row `p`. -/
theorem pay3_apply (x0 x1 : Vec Ideal S512x512 .f32) (p : Fin 512) :
    k0_pay3 x0 x1 (ix1 p) = ∑ d : Fin 512, k0_pay1 x0 (ix2 p d) * k0_pay2 x1 (ix2 p d) := by
  unfold k0_pay3
  exact rowsum_apply _ _ _ _ p

/-! ## The blocks of a tile -/

/-- The grid has 8 points. -/
theorem N0 : cfg0.N = 8 := rfl

/-- Where tile `t`'s blocks sit: block row `t` of each array. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 1) = t.val :=
  (by decide +kernel : ∀ t : Fin grid0.N, _)

/-- Row `p` of tile `t` is row `512 t + p` of the array. -/
def row (t : Fin cfg0.N) (p : Fin 512) : Fin 4096 :=
  ⟨512 * t.val + p.val, by have h : t.val < 8 := t.isLt; have := p.isLt; omega⟩

/-- The first input block at tile `t` holds rows `512 t …` of the first embedding. -/
theorem iblk0_0_apply (c : Dev nD) (t : Fin cfg0.N) (p k : Fin 512) :
    (iblk0 V c 0 t : Vec Ideal S512x512 .f32) (ix2 p k) = (V c main_arg0 : S4096x512.Idx → EReal) (ix2 (row t p) k) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 512 + 1 * k.val = k.val; rw [e1]; omega

/-- The second input block at tile `t` holds rows `512 t …` of the second embedding. -/
theorem iblk0_1_apply (c : Dev nD) (t : Fin cfg0.N) (p k : Fin 512) :
    (iblk0 V c 1 t : Vec Ideal S512x512 .f32) (ix2 p k) = (V c main_arg1 : S4096x512.Idx → EReal) (ix2 (row t p) k) := by
  obtain ⟨-, -, e0, e1, -⟩ := idx0 t
  unfold iblk0
  rw [View.read_apply]
  show V c main_arg1 _ = V c main_arg1 _
  congr 1
  funext a
  apply Fin.ext
  match a with
  | ⟨0, _⟩ => show win0_1.index t (0 : Fin 2) * 512 + 1 * p.val = 512 * t.val + p.val; rw [e0]; omega
  | ⟨1, _⟩ => show win0_1.index t (1 : Fin 2) * 512 + 1 * k.val = k.val; rw [e1]; omega

/-- Entry `(p, q)` of the first output's block at tile `t` is entry `(512 t + p, q)` of the array. -/
theorem blk0_2_emb (t : Fin cfg0.N) (p q : Fin 512) :
    ((cfg0.win 2).blk t).view.emb (ix2 p q) = (ix2 (row t p) q : S4096x512.Idx) := by
  obtain ⟨-, -, -, -, e0, e1, -⟩ := idx0 t
  funext a
  apply Fin.ext
  match a with
  | ⟨0, _⟩ => show win0_2.index t (0 : Fin 2) * 512 + 1 * p.val = 512 * t.val + p.val; rw [e0]; omega
  | ⟨1, _⟩ => show win0_2.index t (1 : Fin 2) * 512 + 1 * q.val = q.val; rw [e1]; omega

/-- What tile `t` writes back to the first output is its block of the scaled first embedding. -/
theorem flushed0_2_eq (c : Dev nD) (t : Fin cfg0.N) :
    (dat0 V c).flushed 2 t
      = ((cfg0.win 2).blk t).view.read (Elt Ideal) (fun i => Cert.Spec.unit (V c main_arg0) (i 0) (i 1)) := by
  show (cfg0.win 2).cut (grid0.coords t) ((dat0 V c).after 2 t) = _
  rw [after0_2]
  funext j
  obtain ⟨p, q, rfl⟩ : ∃ (p q : Fin 512), j = ix2 p q := ⟨j 0, j 1, eq_ix2 j⟩
  rw [View.read_apply, blk0_2_emb]
  show k0_pay4 (iblk0 V c 0 t) (ix2 p q) = Cert.Spec.unit (V c main_arg0) (row t p) q
  rw [pay4_apply, pay1_apply]
  unfold Cert.Spec.unit Cert.Spec.len
  simp only [iblk0_0_apply]

/-- An index of the first output is in tile `t`'s block iff each coordinate is in the block's range on its axis. -/
theorem mem_blk0_2 (t : Fin cfg0.N) (i : S4096x512.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v0_0).slice (win0_2.rect t)).set ↔ _
  rw [View.set_slice_whole, Rect.mem_set_unit]
  exact Iff.rfl

/-- The tile that holds row `r`: `r / 512`. -/
def tileOf (r : Fin 4096) : Fin cfg0.N := ⟨r.val / 512, by show _ < 8; have := r.isLt; omega⟩

theorem tileOf_val (r : Fin 4096) : (tileOf r).val = r.val / 512 := rfl

/-- Every index of the first output is in the block of its row's tile. -/
theorem cover0_2 (i : S4096x512.Idx) :
    ∃ t : Fin cfg0.N, (cfg0.win 2).flush t = true ∧ i ∈ ((cfg0.win 2).blk t).view.set := by
  have hi0 : (i 0).val < 4096 := (i 0).isLt
  have hi1 : (i 1).val < 512 := (i 1).isLt
  refine ⟨tileOf (i 0), flush0_2 _, ?_⟩
  rw [mem_blk0_2]
  obtain ⟨-, -, -, -, e0, e1, -⟩ := idx0 (tileOf (i 0))
  have hv := tileOf_val (i 0)
  intro a
  match a with
  | ⟨0, _⟩ =>
    show win0_2.index (tileOf (i 0)) (0 : Fin 2) * 512 ≤ (i 0).val
      ∧ (i 0).val < win0_2.index (tileOf (i 0)) (0 : Fin 2) * 512 + 512
    rw [e0, hv]; omega
  | ⟨1, _⟩ =>
    show win0_2.index (tileOf (i 0)) (1 : Fin 2) * 512 ≤ (i 1).val
      ∧ (i 1).val < win0_2.index (tileOf (i 0)) (1 : Fin 2) * 512 + 512
    rw [e1]; omega

/-! ## The second output -/

/-- Entry `(p, q)` of the second output's block at tile `t` is entry `(512 t + p, q)` of the array. -/
theorem blk0_3_emb (t : Fin cfg0.N) (p q : Fin 512) :
    ((cfg0.win 3).blk t).view.emb (ix2 p q) = (ix2 (row t p) q : S4096x512.Idx) := by
  obtain ⟨-, -, -, -, -, -, e0, e1, -⟩ := idx0 t
  funext a
  apply Fin.ext
  match a with
  | ⟨0, _⟩ => show win0_3.index t (0 : Fin 2) * 512 + 1 * p.val = 512 * t.val + p.val; rw [e0]; omega
  | ⟨1, _⟩ => show win0_3.index t (1 : Fin 2) * 512 + 1 * q.val = q.val; rw [e1]; omega

/-- What tile `t` writes back to the second output is its block of the scaled second embedding. -/
theorem flushed0_3_eq (c : Dev nD) (t : Fin cfg0.N) :
    (dat0 V c).flushed 3 t
      = ((cfg0.win 3).blk t).view.read (Elt Ideal) (fun i => Cert.Spec.unit (V c main_arg1) (i 0) (i 1)) := by
  show (cfg0.win 3).cut (grid0.coords t) ((dat0 V c).after 3 t) = _
  rw [after0_3]
  funext j
  obtain ⟨p, q, rfl⟩ : ∃ (p q : Fin 512), j = ix2 p q := ⟨j 0, j 1, eq_ix2 j⟩
  rw [View.read_apply, blk0_3_emb]
  show k0_pay5 (iblk0 V c 1 t) (ix2 p q) = Cert.Spec.unit (V c main_arg1) (row t p) q
  rw [pay5_apply, pay2_apply]
  unfold Cert.Spec.unit Cert.Spec.len
  simp only [iblk0_1_apply]

/-- An index of the second output is in tile `t`'s block iff each coordinate is in the block's range on its axis. -/
theorem mem_blk0_3 (t : Fin cfg0.N) (i : S4096x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v0_1).slice (win0_3.rect t)).set ↔ _
  rw [View.set_slice_whole, Rect.mem_set_unit]
  exact Iff.rfl

/-- Every index of the second output is in the block of its row's tile. -/
theorem cover0_3 (i : S4096x512.Idx) :
    ∃ t : Fin cfg0.N, (cfg0.win 3).flush t = true ∧ i ∈ ((cfg0.win 3).blk t).view.set := by
  have hi0 : (i 0).val < 4096 := (i 0).isLt
  have hi1 : (i 1).val < 512 := (i 1).isLt
  refine ⟨tileOf (i 0), flush0_3 _, ?_⟩
  rw [mem_blk0_3]
  obtain ⟨-, -, -, -, -, -, e0, e1, -⟩ := idx0 (tileOf (i 0))
  have hv := tileOf_val (i 0)
  intro a
  match a with
  | ⟨0, _⟩ =>
    show win0_3.index (tileOf (i 0)) (0 : Fin 2) * 512 ≤ (i 0).val
      ∧ (i 0).val < win0_3.index (tileOf (i 0)) (0 : Fin 2) * 512 + 512
    rw [e0, hv]; omega
  | ⟨1, _⟩ =>
    show win0_3.index (tileOf (i 0)) (1 : Fin 2) * 512 ≤ (i 1).val
      ∧ (i 1).val < win0_3.index (tileOf (i 0)) (1 : Fin 2) * 512 + 512
    rw [e1]; omega

/-! ## The third output -/

/-- Entry `p` of the third output's block at tile `t` is entry `512 t + p` of the array. -/
theorem blk0_4_emb (t : Fin cfg0.N) (p : Fin 512) :
    ((cfg0.win 4).blk t).view.emb (ix1 p) = (ix1 (row t p) : S4096.Idx) := by
  obtain ⟨-, -, -, -, -, -, -, -, e0⟩ := idx0 t
  funext a
  apply Fin.ext
  match a with
  | ⟨0, _⟩ => show win0_4.index t (0 : Fin 1) * 512 + 1 * p.val = 512 * t.val + p.val; rw [e0]; omega

/-- What tile `t` writes back to the third output is its block of the inner products of the scaled rows. -/
theorem flushed0_4_eq (c : Dev nD) (t : Fin cfg0.N) :
    (dat0 V c).flushed 4 t
      = ((cfg0.win 4).blk t).view.read (Elt Ideal) (fun i => Cert.Spec.pos (V c main_arg0) (V c main_arg1) (i 0)) := by
  show (cfg0.win 4).cut (grid0.coords t) ((dat0 V c).after 4 t) = _
  rw [after0_4]
  funext j
  obtain ⟨p, rfl⟩ : ∃ (p : Fin 512), j = ix1 p := ⟨j 0, eq_ix1 j⟩
  rw [View.read_apply, blk0_4_emb]
  show k0_pay3 (iblk0 V c 0 t) (iblk0 V c 1 t) (ix1 p) = Cert.Spec.pos (V c main_arg0) (V c main_arg1) (row t p)
  rw [pay3_apply]
  unfold Cert.Spec.pos Cert.Spec.unit Cert.Spec.len
  simp only [pay1_apply, pay2_apply, iblk0_0_apply, iblk0_1_apply]

/-- An index of the third output is in tile `t`'s block iff it is in the block's range. -/
theorem mem_blk0_4 (t : Fin cfg0.N) (i : S4096.Idx) :
    i ∈ ((cfg0.win 4).blk t).view.set ↔ ∀ a : Fin 1, win0_4.index t a * S512.size a ≤ (i a).val
      ∧ (i a).val < win0_4.index t a * S512.size a + S512.size a := by
  show i ∈ ((View.whole main_v0_2).slice (win0_4.rect t)).set ↔ _
  rw [View.set_slice_whole, Rect.mem_set_unit]
  exact Iff.rfl

/-- Every index of the third output is in the block of its tile. -/
theorem cover0_4 (i : S4096.Idx) :
    ∃ t : Fin cfg0.N, (cfg0.win 4).flush t = true ∧ i ∈ ((cfg0.win 4).blk t).view.set := by
  have hi0 : (i 0).val < 4096 := (i 0).isLt
  refine ⟨tileOf (i 0), flush0_4 _, ?_⟩
  rw [mem_blk0_4]
  obtain ⟨-, -, -, -, -, -, -, -, e0⟩ := idx0 (tileOf (i 0))
  have hv := tileOf_val (i 0)
  intro a
  match a with
  | ⟨0, _⟩ =>
    show win0_4.index (tileOf (i 0)) (0 : Fin 1) * 512 ≤ (i 0).val
      ∧ (i 0).val < win0_4.index (tileOf (i 0)) (0 : Fin 1) * 512 + 512
    rw [e0, hv]; omega

end Norm

/-! ## The three output arrays -/

/-- The first output array after the last tile: the first embedding's rows scaled to unit length. -/
theorem arr0_2 (c : Dev nD) : (dat0 V c).arrAt 2 cfg0.N = fun i => Cert.Spec.unit (V c main_arg0) (i 0) (i 1) :=
  (dat0 V c).arrAt_eq_of_cover 2 _ (fun t _ => Norm.flushed0_2_eq V c t) Norm.cover0_2

/-- The second output array: the second embedding's rows scaled to unit length. -/
theorem arr0_3 (c : Dev nD) : (dat0 V c).arrAt 3 cfg0.N = fun i => Cert.Spec.unit (V c main_arg1) (i 0) (i 1) :=
  (dat0 V c).arrAt_eq_of_cover 3 _ (fun t _ => Norm.flushed0_3_eq V c t) Norm.cover0_3

/-- The third output array: the inner products of the scaled rows. -/
theorem arr0_4 (c : Dev nD) : (dat0 V c).arrAt 4 cfg0.N = fun i => Cert.Spec.pos (V c main_arg0) (V c main_arg1) (i 0) :=
  (dat0 V c).arrAt_eq_of_cover 4 _ (fun t _ => Norm.flushed0_4_eq V c t) Norm.cover0_4

end Cert.KernelIdeal.Pf

end
-- ==== Proof.Val1.lean ====
/-
  What the denominator kernel leaves in its output array, on the extended reals, for ANY contents `Z` of the stacked array it
  reads through both input windows: row tile `i`'s 512 words are written back once, after its eighth column tile, and by then
  hold `((0 + s(i,0)) + s(i,1)) + … + s(i,7)`, so entry `r` of the array is the tile-by-tile denominator of row `r` of `Z`.
-/
import proofs.«154075_j24962349924507_1_alg».proof.Proof.KI.Data
import proofs.«154075_j24962349924507_1_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! ## One point's arithmetic at a row -/

/-- The word `512·a + p` from its parts: no wrap-around at these sizes. -/
theorem word_row (a p : Nat) (ha : a < 16) (hp : p < 512) :
    IntOp.addi (Scalar.muli (BitVec.ofNat 32 a) 512#32) (BitVec.ofNat 32 p) = BitVec.ofNat 32 (512 * a + p) := by
  apply BitVec.eq_of_toNat_eq
  simp only [Scalar.muli, IntOp.muli, IntOp.addi, BitVec.toNat_add, BitVec.toNat_mul, BitVec.toNat_ofNat]
  omega

/-- The word `1024·b + q` likewise. -/
theorem word_col (b q : Nat) (hb : b < 8) (hq : q < 1024) :
    IntOp.addi (Scalar.muli (BitVec.ofNat 32 b) 1024#32) (BitVec.ofNat 32 q) = BitVec.ofNat 32 (1024 * b + q) := by
  apply BitVec.eq_of_toNat_eq
  simp only [Scalar.muli, IntOp.muli, IntOp.addi, BitVec.toNat_add, BitVec.toNat_mul, BitVec.toNat_ofNat]
  omega

/-- Two naturals below `2^32` are equal exactly when their 32-bit words are. -/
theorem word_eq_iff (x y : Nat) (hx : x < 2 ^ 32) (hy : y < 2 ^ 32) : BitVec.ofNat 32 x = BitVec.ofNat 32 y ↔ x = y := by
  constructor
  · intro h
    have := congrArg BitVec.toNat h
    simp only [BitVec.toNat_ofNat] at this
    omega
  · intro h; rw [h]

/-! The tile product's operand indices, axis by axis: the left operand is read at (output row, contraction coordinate), the
    right at (output column, contraction coordinate). -/

theorem lhs_dd_0 (j : S512x1024.Idx) (q : dot_S512x512_S1024x512_S512x1024_1_1_0_0_n_n.contr.Idx) :
    (dot_S512x512_S1024x512_S512x1024_1_1_0_0_n_n.lhsIdx j q 0).val = (j 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem lhs_dd_1 (j : S512x1024.Idx) (q : dot_S512x512_S1024x512_S512x1024_1_1_0_0_n_n.contr.Idx) :
    (dot_S512x512_S1024x512_S512x1024_1_1_0_0_n_n.lhsIdx j q 1).val = (q ⟨0, by decide⟩).val :=
  dot_S512x512_S1024x512_S512x1024_1_1_0_0_n_n.lhsIdx_val_of_single rfl j q
theorem rhs_dd_0 (j : S512x1024.Idx) (q : dot_S512x512_S1024x512_S512x1024_1_1_0_0_n_n.contr.Idx) :
    (dot_S512x512_S1024x512_S512x1024_1_1_0_0_n_n.rhsIdx j q 0).val = (j 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem rhs_dd_1 (j : S512x1024.Idx) (q : dot_S512x512_S1024x512_S512x1024_1_1_0_0_n_n.contr.Idx) :
    (dot_S512x512_S1024x512_S512x1024_1_1_0_0_n_n.rhsIdx j q 1).val = (q ⟨0, by decide⟩).val :=
  dot_S512x512_S1024x512_S512x1024_1_1_0_0_n_n.rhsIdx_val_of_single rfl j q

/-- The tile product into a zero accumulator, at row `p` and column `c'`: the inner product of row `p` of the row tile and
    row `c'` of the column tile. -/
theorem tile_dot (x0 : FVec Ideal S512x512 .bf16) (x1 : FVec Ideal S1024x512 .bf16) (p : Fin 512) (c' : Fin 1024) :
    matmul (F := Ideal) dot_S512x512_S1024x512_S512x1024_1_1_0_0_n_n none x0 x1 (constant (F := Ideal) S512x1024 .f32 0x00000000#32) (ix2 p c')
      = ∑ d : Fin 512, x0 (ix2 p d) * x1 (ix2 c' d) := by
  simp only [matmul]
  rw [Ideal.matmul_constant_zero_apply, ← Equiv.sum_comp (ValueIdx.contrEquiv1 dot_S512x512_S1024x512_S512x1024_1_1_0_0_n_n 512 rfl rfl).symm]
  refine Finset.sum_congr rfl fun k _ => ?_
  have hk := ValueIdx.contrEquiv1_symm_val dot_S512x512_S1024x512_S512x1024_1_1_0_0_n_n 512 rfl rfl k
  have el : dot_S512x512_S1024x512_S512x1024_1_1_0_0_n_n.lhsIdx (ix2 p c') ((ValueIdx.contrEquiv1 dot_S512x512_S1024x512_S512x1024_1_1_0_0_n_n 512 rfl rfl).symm k) = ix2 p k := funext fun a => Fin.ext (by
    match a with
    | ⟨0, _⟩ => exact lhs_dd_0 _ _
    | ⟨1, _⟩ => exact (lhs_dd_1 _ _).trans hk)
  have er : dot_S512x512_S1024x512_S512x1024_1_1_0_0_n_n.rhsIdx (ix2 p c') ((ValueIdx.contrEquiv1 dot_S512x512_S1024x512_S512x1024_1_1_0_0_n_n 512 rfl rfl).symm k) = ix2 c' k := funext fun a => Fin.ext (by
    match a with
    | ⟨0, _⟩ => exact rhs_dd_0 _ _
    | ⟨1, _⟩ => exact (rhs_dd_1 _ _).trans hk)
  rw [el, er]

/-- The diagonal mask at row `p`, column `c'` of the tile at grid coordinates `i`: set exactly when the global row and column agree. -/
theorem diag_bit (i : grid1.Coords) (p : Fin 512) (c' : Fin 1024) :
    cmpi .eq
      (addi (broadcast S512x1024 (Scalar.muli (BitVec.ofNat 32 (i 0).val) 512#32)) (iota .tc S512x1024 32 [0] iota_S512x1024_d0_w32))
      (addi (broadcast S512x1024 (Scalar.muli (BitVec.ofNat 32 (i 1).val) 1024#32)) (iota .tc S512x1024 32 [1] iota_S512x1024_d1_w32))
      (ix2 p c')
    = if 512 * (i 0).val + p.val = 1024 * (i 1).val + c'.val then 1#1 else 0#1 := by
  have h0 : (i 0).val < 16 := (i 0).isLt
  have h1 : (i 1).val < 8 := (i 1).isLt
  show IntOp.cmpi .eq (IntOp.addi (Scalar.muli (BitVec.ofNat 32 (i 0).val) 512#32) (iota .tc S512x1024 32 [0] iota_S512x1024_d0_w32 (ix2 p c')))
      (IntOp.addi (Scalar.muli (BitVec.ofNat 32 (i 1).val) 1024#32) (iota .tc S512x1024 32 [1] iota_S512x1024_d1_w32 (ix2 p c'))) = _
  rw [iota_single_apply, iota_single_apply]
  show IntOp.cmpi .eq (IntOp.addi (Scalar.muli (BitVec.ofNat 32 (i 0).val) 512#32) (BitVec.ofNat 32 p.val))
      (IntOp.addi (Scalar.muli (BitVec.ofNat 32 (i 1).val) 1024#32) (BitVec.ofNat 32 c'.val)) = _
  rw [word_row _ _ h0 p.isLt, word_col _ _ h1 c'.isLt]
  by_cases h : 512 * (i 0).val + p.val = 1024 * (i 1).val + c'.val
  · rw [if_pos h, h]; exact StableHlo.Predicate.cmpi_eq_iff.mpr rfl
  · rw [if_neg h]
    refine eq_zero_of_ne_one fun hb => h ?_
    have := StableHlo.Predicate.cmpi_eq_iff.mp hb
    exact (word_eq_iff _ _ (by have := p.isLt; omega) (by have := c'.isLt; omega)).mp this

/-- The lane sum over axis 1 reads, at reduced index `p` and lane `c'`, the entry `(p, c')`. -/
theorem lift_ix (p : Fin 512) (c' : Fin 1024) : reduces_S512x1024_S512.lift (ix1 p) c' = ix2 p c' :=
  funext fun a => Fin.ext (by match a with | ⟨0, _⟩ => rfl | ⟨1, _⟩ => rfl)

/-- One point's update at row `p` of the row tile: the running sum plus the tile's 1024 masked exponentials. -/
theorem pay2_apply (i : grid1.Coords) (x0 : Vec Ideal S512x512 .bf16) (x1 : Vec Ideal S1024x512 .bf16)
    (prev : Vec Ideal S512 .f32) (p : Fin 512) :
    k1_pay2 (F := Ideal) i x0 x1 prev (ix1 p)
      = prev (ix1 p) + ∑ c' : Fin 1024, (if 512 * (i 0).val + p.val = 1024 * (i 1).val + c'.val then (0 : EReal)
          else Ideal.exp ((∑ d : Fin 512, x0 (ix2 p d) * x1 (ix2 c' d)) * Cert.Spec.two)) := by
  unfold k1_pay2
  dsimp only
  simp only [shapeCast_self]
  refine (addf_apply _ _ _).trans ?_
  refine congrArg (prev (ix1 p) + ·) ?_
  refine (Ideal.multiReduction_add_single _ _ _ _ _ _).trans ?_
  refine Fintype.sum_congr (α := Fin 1024) _ _ fun c' => ?_
  have e : reduces_S512x1024_S512.lift (ix1 p) c' = ix2 p c' := lift_ix p c'
  rw [e]
  refine (select_apply _ _ _ _).trans ?_
  rw [diag_bit i p c']
  by_cases h : 512 * (i 0).val + p.val = 1024 * (i 1).val + c'.val
  · rw [if_pos h, if_pos h, select_one]
    exact Ideal.ofBits_zero_f32
  · rw [if_neg h, if_neg h, select_zero]
    show Ideal.exp (matmul (F := Ideal) dot_S512x512_S1024x512_S512x1024_1_1_0_0_n_n none x0 x1 (constant (F := Ideal) S512x1024 .f32 0x00000000#32) (ix2 p c') * Ideal.ofBits .f32 0x40000000#32) = _
    rw [tile_dot]
    rfl

/-! ## The two input tiles of a point, read off the stacked array -/

/-- The grid has 128 points. -/
theorem t_lt (t : Fin cfg1.N) : t.val < 128 := lt_of_lt_of_eq t.isLt N_1

/-- The row tile of point `t`. -/
def ti (t : Fin cfg1.N) : Fin 16 := ⟨t.val / 8, by have := t_lt t; omega⟩
/-- The column tile of point `t`. -/
def tj (t : Fin cfg1.N) : Fin 8 := ⟨t.val % 8, by omega⟩
/-- Row `p` of row tile `a`. -/
def rowOf (a : Fin 16) (p : Fin 512) : Fin 8192 := ⟨512 * a.val + p.val, by omega⟩

/-- The printed index maps and the grid's coordinates, decided over the 128 points. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 1) = t.val / 8
    ∧ (grid1.coords t 0).val = t.val / 8 ∧ (grid1.coords t 1).val = t.val % 8 :=
  (by decide +kernel : ∀ t : Fin grid1.N, _)

/-- The stacked array, at its literal type. -/
abbrev zarr (c : Dev nD) : Vec Ideal S8192x512 .bf16 := V c main_v1

/-- The row window's tile at point `t` holds rows `512·(t / 8) …` of the stacked array. -/
theorem iblk1_0_apply (c : Dev nD) (t : Fin cfg1.N) (p d : Fin 512) :
    (iblk1 V c 0 t : Vec Ideal S512x512 .bf16) (ix2 p d) = zarr V c (ix2 (rowOf (ti t) p) d) := by
  obtain ⟨e0, e1, -⟩ := idx_facts1 t
  unfold iblk1
  rw [View.read_apply]
  show V c main_v1 _ = V c main_v1 _
  congr 1
  funext a
  apply Fin.ext
  match a with
  | ⟨0, _⟩ => show win1_0.index t (0 : Fin 2) * 512 + 1 * p.val = 512 * (t.val / 8) + p.val; rw [e0]; omega
  | ⟨1, _⟩ => show win1_0.index t (1 : Fin 2) * 512 + 1 * d.val = d.val; rw [e1]; omega

/-- The column window's tile at point `t` holds rows `1024·(t % 8) …` of the same array. -/
theorem iblk1_1_apply (c : Dev nD) (t : Fin cfg1.N) (c' : Fin 1024) (d : Fin 512) :
    (iblk1 V c 1 t : Vec Ideal S1024x512 .bf16) (ix2 c' d) = zarr V c (ix2 (Cert.Spec.col (tj t) c') d) := by
  obtain ⟨-, -, e0, e1, -⟩ := idx_facts1 t
  unfold iblk1
  rw [View.read_apply]
  show V c main_v1 _ = V c main_v1 _
  congr 1
  funext a
  apply Fin.ext
  match a with
  | ⟨0, _⟩ => show win1_1.index t (0 : Fin 2) * 1024 + 1 * c'.val = 1024 * (t.val % 8) + c'.val; rw [e0]; omega
  | ⟨1, _⟩ => show win1_1.index t (1 : Fin 2) * 512 + 1 * d.val = d.val; rw [e1]; omega

/-! ## One point's update, and the running sum after each point -/

/-- The tile's 1024 masked exponentials of row `r`, for column tile `s` (zero past the eight tiles). -/
def tileTerm (Z : Cert.Spec.Emb2) (r : Fin 8192) (s : Nat) : EReal :=
  if hs : s < 8 then ∑ c' : Fin 1024, Cert.Spec.termSel Z r (Cert.Spec.col ⟨s, hs⟩ c') else 0

/-- At a point's own column tile that is the sum over the tile's 1024 columns. -/
theorem tileTerm_tj (Z : Cert.Spec.Emb2) (r : Fin 8192) (t : Fin cfg1.N) :
    tileTerm Z r (t.val % 8) = ∑ c' : Fin 1024, Cert.Spec.termSel Z r (Cert.Spec.col (tj t) c') := by
  unfold tileTerm
  rw [dif_pos (show t.val % 8 < 8 by omega)]
  rfl

/-- One point's update at row `p`: what was there plus the point's column tile of row `512·(t / 8) + p`. -/
theorem step1_apply (c : Dev nD) (t : Fin cfg1.N) (prev : Vec Ideal S512 .f32) (p : Fin 512) :
    step1 V c t prev (ix1 p) = prev (ix1 p) + tileTerm (zarr V c) (rowOf (ti t) p) (t.val % 8) := by
  obtain ⟨-, -, -, -, -, g0, g1⟩ := idx_facts1 t
  unfold step1
  refine (pay2_apply (grid1.coords t) (iblk1 V c 0 t) (iblk1 V c 1 t) prev p).trans ?_
  rw [tileTerm_tj]
  refine congrArg (prev (ix1 p) + ·) (Fintype.sum_congr _ _ fun c' => ?_)
  unfold Cert.Spec.termSel Cert.Spec.gram
  have hc : (512 * (grid1.coords t 0).val + p.val = 1024 * (grid1.coords t 1).val + c'.val)
      ↔ rowOf (ti t) p = Cert.Spec.col (tj t) c' := by
    rw [g0, g1]
    exact ⟨fun h => Fin.ext h, fun h => congrArg Fin.val h⟩
  refine (if_congr hc rfl ?_)
  refine congrArg (fun s => Ideal.exp (s * Cert.Spec.two)) (Fintype.sum_congr _ _ fun d => ?_)
  rw [iblk1_0_apply V c t p d, iblk1_1_apply V c t c' d]

/-- The word the sum restarts from is the extended real zero. -/
theorem pay1_apply (p : Fin 512) : k1_pay1 (F := Ideal) (ix1 p) = 0 := by
  show Ideal.ofBits .f32 0x00000000#32 = 0
  exact Ideal.ofBits_zero_f32

/-- After point `n` the output window holds, at row `p`, the sum of the column tiles `0 … n % 8` of row `512·(n / 8) + p`:
    by induction on the point, the sum restarting at the multiples of 8. -/
theorem outsAt1_apply (c : Dev nD) : ∀ (n : Nat) (h : n < cfg1.N) (p : Fin 512),
    outsAt1 V c n h (ix1 p) = ∑ s ∈ Finset.range (n % 8 + 1), tileTerm (zarr V c) (rowOf (ti ⟨n, h⟩) p) s
  | 0, h, p => by
    refine (congrFun (outsAt1_first V c ⟨0, h⟩ rfl) (ix1 p)).trans ?_
    rw [step1_apply, pay1_apply, zero_add]
    exact (Finset.sum_range_one _).symm
  | n + 1, h, p => by
    by_cases h0 : (n + 1) % 8 = 0
    · refine (congrFun (outsAt1_first V c ⟨n + 1, h⟩ h0) (ix1 p)).trans ?_
      rw [step1_apply, pay1_apply, zero_add]
      show tileTerm _ _ ((n + 1) % 8) = _
      rw [h0]
      exact (Finset.sum_range_one _).symm
    · refine (congrFun (outsAt1_next V c ⟨n + 1, h⟩ h0) (ix1 p)).trans ?_
      rw [step1_apply]
      show outsAt1 V c n (Nat.lt_of_succ_lt h) (ix1 p) + tileTerm _ _ ((n + 1) % 8) = _
      rw [outsAt1_apply c n (Nat.lt_of_succ_lt h) p]
      have e1 : (n + 1) % 8 = n % 8 + 1 := by omega
      have e2 : ti ⟨n, Nat.lt_of_succ_lt h⟩ = ti ⟨n + 1, h⟩ := Fin.ext (by show n / 8 = (n + 1) / 8; omega)
      rw [e2, e1, Finset.sum_range_succ _ (n % 8 + 1)]

/-! ## From the tiles to the array -/

/-- All eight column tiles of a row make its tile-by-tile denominator. -/
theorem sum_tiles (Z : Cert.Spec.Emb2) (r : Fin 8192) : ∑ s ∈ Finset.range 8, tileTerm Z r s = Cert.Spec.denTiled Z r := by
  rw [Finset.sum_range]
  unfold Cert.Spec.denTiled
  refine Fintype.sum_congr _ _ fun j => ?_
  unfold tileTerm
  rw [dif_pos j.isLt]

/-- What a point that writes back writes: its 512 rows of the denominators. Such a point is the eighth column tile of its row tile. -/
theorem flushed1_2_eq (c : Dev nD) (t : Fin cfg1.N) (hf : (cfg1.win 2).flush t = true) :
    (dat1 V c).flushed 2 t
      = ((cfg1.win 2).blk t).view.read (Elt Ideal) (fun i => Cert.Spec.denTiled (V c main_v1) (i 0)) := by
  have h7 : t.val % 8 = 7 := (flush1_2 t).mp hf
  obtain ⟨-, -, -, -, e2, -⟩ := idx_facts1 t
  show (cfg1.win 2).cut (grid1.coords t) ((dat1 V c).after 2 t) = _
  rw [after1_2]
  funext y
  obtain ⟨q, rfl⟩ : ∃ q : Fin 512, y = ix1 q := ⟨y 0, eq_ix1 y⟩
  rw [View.read_apply]
  show outsAt1 V c t.val t.isLt (ix1 q) = Cert.Spec.denTiled (V c main_v1) ((((cfg1.win 2).blk t).view.emb (ix1 q)) 0)
  rw [outsAt1_apply V c t.val t.isLt q, h7, sum_tiles]
  congr 1
  apply Fin.ext
  show 512 * (t.val / 8) + q.val = win1_2.index t (0 : Fin 1) * 512 + 1 * q.val
  rw [e2]; omega

/-- The output array after the last point: the tile-by-tile denominators of the rows of the array the kernel read. -/
theorem arr1_2 (c : Dev nD) : (dat1 V c).arrAt 2 cfg1.N = fun i => Cert.Spec.denTiled (V c main_v1) (i 0) :=
  (dat1 V c).arrAt_eq_of_cover 2 (fun i => Cert.Spec.denTiled (V c main_v1) (i 0)) (flushed1_2_eq V c) fun i => by
    have hi : (i 0).val < 8192 := (i 0).isLt
    obtain ⟨t, ht⟩ : ∃ t : Fin cfg1.N, t.val = 8 * ((i 0).val / 512) + 7 :=
      ⟨⟨8 * ((i 0).val / 512) + 7, lt_of_lt_of_eq (by omega) N_1.symm⟩, rfl⟩
    obtain ⟨-, -, -, -, e2, -⟩ := idx_facts1 t
    refine ⟨t, (flush1_2 t).mpr (by omega), ?_⟩
    show i ∈ ((View.whole main_v3).slice (win1_2.rect t)).set
    rw [View.set_slice_whole, Rect.mem_set_unit]
    intro a
    match a with
    | ⟨0, _⟩ =>
      show win1_2.index t (0 : Fin 1) * 512 ≤ (i 0).val ∧ (i 0).val < win1_2.index t (0 : Fin 1) * 512 + 512
      rw [e2]; omega

end Cert.KernelIdeal.Pf

end
-- ==== Proof.KVal.lean ====
/-
  The kernel program's result on the extended reals, as a function of its two arguments: the fold through @main read at the
  result buffer. The first kernel leaves the two scaled embeddings and their row-wise inner products; the concatenations
  stack the scaled embeddings into `z` and double the inner products; the second kernel leaves the tile-by-tile
  denominators of the rows of `z`; and the ten closing host operations are the shared tail of the doubled positives and the
  denominators.
-/
import proofs.«154075_j24962349924507_1_alg».proof.Proof.KI.Ends
import proofs.«154075_j24962349924507_1_alg».proof.Proof.Val0
import proofs.«154075_j24962349924507_1_alg».proof.Proof.Val1
import proofs.«154075_j24962349924507_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

/-! ## Two concatenations read at an index -/

/-- Stacking two 4096 × 512 arrays along the rows: a row below 4096 is that row of the first, a row from 4096 on is the row
    4096 less of the second. -/
theorem stack2_at (a b : (⟨S4096x512, .bf16⟩ : BufTy).Contents (Elt Ideal)) (r : Fin 8192) (d : Fin 512) :
    concatenate S8192x512 0 [⟨S4096x512, a⟩, ⟨S4096x512, b⟩] Facts₀.concatenates_S4096x512_S4096x512_S8192x512_d0 (ix2 r d)
      = if h : r.val < 4096 then a (ix2 ⟨r.val, h⟩ d) else b (ix2 ⟨r.val - 4096, by omega⟩ d) := by
  split
  · next h =>
    exact concatenate_pair_apply_left (t := S8192x512) (s₁ := S4096x512) (s₂ := S4096x512) (0 : Fin 2) _ _
      Facts₀.concatenates_S4096x512_S4096x512_S8192x512_d0 (ix2 r d) rfl
      (ix2 ⟨r.val, h⟩ d) (fun b => match b with
        | ⟨0, _⟩ => rfl
        | ⟨1, _⟩ => rfl)
  · next h =>
    exact concatenate_pair_apply_right (t := S8192x512) (s₁ := S4096x512) (s₂ := S4096x512) (0 : Fin 2) _ _
      Facts₀.concatenates_S4096x512_S4096x512_S8192x512_d0 (ix2 r d) rfl rfl
      (ix2 ⟨r.val - 4096, by omega⟩ d) (fun b hb => match b with
        | ⟨0, _⟩ => absurd rfl hb
        | ⟨1, _⟩ => rfl)
      (by show r.val - 4096 + 4096 = r.val; omega)

/-- Doubling a vector of 4096 entries: entry `r` is entry `r` below 4096 and entry `r − 4096` from there on. -/
theorem stack1_at (a b : (⟨S4096, .f32⟩ : BufTy).Contents (Elt Ideal)) (r : Fin 8192) :
    concatenate S8192 0 [⟨S4096, a⟩, ⟨S4096, b⟩] Facts₀.concatenates_S4096_S4096_S8192_d0 (ix1 r)
      = if h : r.val < 4096 then a (ix1 ⟨r.val, h⟩) else b (ix1 ⟨r.val - 4096, by omega⟩) := by
  split
  · next h =>
    exact concatenate_pair_apply_left (t := S8192) (s₁ := S4096) (s₂ := S4096) (0 : Fin 1) _ _
      Facts₀.concatenates_S4096_S4096_S8192_d0 (ix1 r) rfl
      (ix1 ⟨r.val, h⟩) (fun b => match b with
        | ⟨0, _⟩ => rfl)
  · next h =>
    exact concatenate_pair_apply_right (t := S8192) (s₁ := S4096) (s₂ := S4096) (0 : Fin 1) _ _
      Facts₀.concatenates_S4096_S4096_S8192_d0 (ix1 r) rfl rfl
      (ix1 ⟨r.val - 4096, by omega⟩) (fun b hb => match b with
        | ⟨0, _⟩ => absurd rfl hb)
      (by show r.val - 4096 + 4096 = r.val; omega)

/-! ## The boundaries' contents -/

/-- The first argument, as an embedding. -/
abbrev xi (c : Dev nD) : Cert.Spec.Emb := V0 m ρ c main_arg0
/-- The second argument. -/
abbrev xj (c : Dev nD) : Cert.Spec.Emb := V0 m ρ c main_arg1

/-- After the first kernel its first output holds the first argument's rows scaled to unit length, -/
theorem V1_main_v0_0 (c : Dev nD) : V1 m ρ c main_v0_0 = fun i => Cert.Spec.unit (xi m ρ c) (i 0) (i 1) :=
  (W1_arr m ρ c 2).trans (arr0_2 (V0 m ρ) c)
/-- its second the second argument's, -/
theorem V1_main_v0_1 (c : Dev nD) : V1 m ρ c main_v0_1 = fun i => Cert.Spec.unit (xj m ρ c) (i 0) (i 1) :=
  (W1_arr m ρ c 3).trans (arr0_3 (V0 m ρ) c)
/-- and its third the inner products of the scaled rows. -/
theorem V1_main_v0_2 (c : Dev nD) : V1 m ρ c main_v0_2 = fun i => Cert.Spec.pos (xi m ρ c) (xj m ρ c) (i 0) :=
  (W1_arr m ρ c 4).trans (arr0_4 (V0 m ρ) c)

/-- The stacked array the second kernel reads is the concatenation of the first kernel's two scaled embeddings. -/
theorem V2_main_v1_eq (c : Dev nD) :
    (V2 m ρ c main_v1 : S8192x512.Idx → EReal)
      = concatenate S8192x512 0 [⟨S4096x512, V1 m ρ c main_v0_0⟩, ⟨S4096x512, V1 m ρ c main_v0_1⟩] Facts₀.concatenates_S4096x512_S4096x512_S8192x512_d0 := by
  show StableHlo.after hostOps1 (W1 m ρ c) (Proc.devRef .tc main_v1) = _
  after_results

/-- It is the stack of the two scaled embeddings. -/
theorem V2_main_v1 (c : Dev nD) : V2 m ρ c main_v1 = Cert.Spec.stackArr (xi m ρ c) (xj m ρ c) := by
  rw [V2_main_v1_eq]
  funext i
  obtain ⟨r, d, rfl⟩ : ∃ (r : Fin 8192) (d : Fin 512), i = ix2 r d := ⟨i 0, i 1, eq_ix2 i⟩
  rw [stack2_at, V1_main_v0_0, V1_main_v0_1]
  rfl

/-- The doubled positives are the concatenation of the first kernel's inner products with themselves. -/
theorem V2_main_v2_eq (c : Dev nD) :
    (V2 m ρ c main_v2 : S8192.Idx → EReal)
      = concatenate S8192 0 [⟨S4096, V1 m ρ c main_v0_2⟩, ⟨S4096, V1 m ρ c main_v0_2⟩] Facts₀.concatenates_S4096_S4096_S8192_d0 := by
  show StableHlo.after hostOps1 (W1 m ρ c) (Proc.devRef .tc main_v2) = _
  after_results

/-- They are the positives, once per stacked row. -/
theorem V3_main_v2 (c : Dev nD) : V3 m ρ c main_v2 = fun i => Cert.Spec.pos2 (xi m ρ c) (xj m ρ c) (i 0) := by
  rw [V3_of_ne m ρ c main_v2 (by decide), V2_main_v2_eq]
  funext i
  obtain ⟨r, rfl⟩ : ∃ r : Fin 8192, i = ix1 r := ⟨i 0, eq_ix1 i⟩
  rw [stack1_at, V1_main_v0_2]
  rfl

/-- After the second kernel its output holds the tile-by-tile denominators of the rows of the stack. -/
theorem V3_main_v3' (c : Dev nD) : V3 m ρ c main_v3 = fun i => Cert.Spec.denTiled (Cert.Spec.stackArr (xi m ρ c) (xj m ρ c)) (i 0) := by
  rw [V3_main_v3, arr1_2 (V2 m ρ) c, V2_main_v1]

/-- The result buffer at the end is the shared tail of the doubled positives and the denominators as the second kernel's
    exit leaves them. -/
theorem W4_main_v10_eq (c : Dev nD) :
    (W4 m ρ c (Proc.devRef .tc main_v10) : S_.Idx → EReal)
      = Cert.Spec.tail Facts₀.bcast_S_S8192 Facts₀.reducesTo_S8192_S_d0 Facts₀.h_S_ (V3 m ρ c main_v2) (V3 m ρ c main_v3) := by
  show StableHlo.after hostOps2 (W3 m ρ c) (Proc.devRef .tc main_v10) = _
  after_results
  rfl

/-- THE KERNEL PROGRAM'S RESULT: the tail of the positives and the tile-by-tile denominators of the stacked scaled arguments. -/
theorem W4_main_v10 (c : Dev nD) :
    W4 m ρ c (Proc.devRef .tc main_v10)
      = Cert.Spec.tail Facts₀.bcast_S_S8192 Facts₀.reducesTo_S8192_S_d0 Facts₀.h_S_
          (fun i => Cert.Spec.pos2 (xi m ρ c) (xj m ρ c) (i 0))
          (fun i => Cert.Spec.denTiled (Cert.Spec.stackArr (xi m ρ c) (xj m ρ c)) (i 0)) := by
  rw [W4_main_v10_eq, V3_main_v2, V3_main_v3']
  rfl

/-- THE KERNEL PROGRAM'S RUN on the extended reals: every weakly fair execution terminates with the result buffer at that
    value and the two arguments as launched. -/
theorem run_value : θ_run (defs (F := Ideal)) (onTc (τ := τ) (main (F := Ideal))) ⟨m, fun _ => 0, ρ⟩ (fun r => ∀ c : Dev nD,
      r.2.mem ((c.tc : Thread nD τ).loc main_v10)
        = Cert.Spec.tail Facts₀.bcast_S_S8192 Facts₀.reducesTo_S8192_S_d0 Facts₀.h_S_
            (fun i => Cert.Spec.pos2 (m ((c.tc : Thread nD τ).loc main_arg0)) (m ((c.tc : Thread nD τ).loc main_arg1)) (i 0))
            (fun i => Cert.Spec.denTiled (Cert.Spec.stackArr (m ((c.tc : Thread nD τ).loc main_arg0)) (m ((c.tc : Thread nD τ).loc main_arg1))) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v10 (by decide))).trans (W4_main_v10 m ρ c),
     (h c _ (mem_uc main_arg0 (by decide))).trans (W4_main_arg0 m ρ c),
     (h c _ (mem_uc main_arg1 (by decide))).trans (W4_main_arg1 m ρ c)⟩) (run_all m ρ)

end Cert.KernelIdeal.Pf

end
-- ==== Proof.Ref.lean ====
/-
  The reference's result, on the extended reals, as the shared host tail of the positives and of the one-sum denominators of
  the stacked scaled embeddings: its run read operation by operation.
-/
import proofs.«154075_j24962349924507_1_alg».proof.Proof.Gen.ReferenceIdeal.Read
import proofs.«154075_j24962349924507_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.ReferenceIdeal.RefVal

open Idealize.ShloMosaic Idealize.ShloMosaic.TcCoe Idealize.SL.Sem
open Idealize.ShloMosaic.ValueIdx
open Cert.ReferenceIdeal

open Cert.ReferenceIdeal.Read
open scoped BigOperators

/-- The last operations of the program (divide by ½, logarithm, subtract, negate, sum from zero, divide by 8192),
    applied to the positives and the denominators, are the shared tail. -/
theorem v34_eq_tail (x0 x1 : (⟨S4096x512, .f32⟩ : BufTy).Contents (Elt Ideal)) :
    val_main_v34 (F := Ideal) x0 x1
      = Cert.Spec.tail Facts₀.bcast_S_S8192 Facts₀.reducesTo_S8192_S_d0 Facts₀.h_S_
          (val_main_v14 (F := Ideal) x0 x1) (val_main_v27 (F := Ideal) x0 x1) := by
  unfold val_main_v34 val_main_v33 val_main_v32 val_main_v31 val_main_v30 val_main_v29 val_main_v28
    val_main_cst_5 val_main_cst_6 val_main_cst_7 Cert.Spec.tail
  rfl

/-! ## The scaled rows and their stack -/

/-- The first argument's row `a` scaled to unit length, at entry `d`: the first quotient read at an index. The row's
    squared length is the sum from zero of the squares; the clamp is the maximum with `ε`. -/
theorem v4_at (x : (⟨S4096x512, .f32⟩ : BufTy).Contents (Elt Ideal)) (a : Fin 4096) (d : Fin 512) :
    val_main_v4 (F := Ideal) x (ix2 a d) = Cert.Spec.unit x a d := by
  have hidx : ∀ k : Fin 512, idx_main_call0_v1 (idx_main_call0_v2 (idx_main_v3 (ix2 a d))) k = ix2 a k := fun k =>
    funext fun b => match b with
      | ⟨0, _⟩ => rfl
      | ⟨1, _⟩ => rfl
  rw [val_main_v4_apply, val_main_v3_apply, val_main_v2_apply, val_main_v0_apply, val_main_call0_v2_apply,
    val_main_call0_v1_apply, val_main_v1_apply, val_main_cst_apply, val_main_call0_cst_apply]
  simp only [hidx, val_main_call0_v0_apply, Ideal.hostDivf_def, Ideal.maximumf_def, Ideal.hostUnary_sqrt_def,
    Ideal.mulf_def, Ideal.ofBits_def, Ideal.ofBits_zero_f32, zero_add]
  rfl

/-- The same for the second argument: the second quotient read at an index. -/
theorem v9_at (x : (⟨S4096x512, .f32⟩ : BufTy).Contents (Elt Ideal)) (a : Fin 4096) (d : Fin 512) :
    val_main_v9 (F := Ideal) x (ix2 a d) = Cert.Spec.unit x a d := by
  have hidx : ∀ k : Fin 512, idx_main_call1_v1 (idx_main_call1_v2 (idx_main_v8 (ix2 a d))) k = ix2 a k := fun k =>
    funext fun b => match b with
      | ⟨0, _⟩ => rfl
      | ⟨1, _⟩ => rfl
  rw [val_main_v9_apply, val_main_v8_apply, val_main_v7_apply, val_main_v5_apply, val_main_call1_v2_apply,
    val_main_call1_v1_apply, val_main_v6_apply, val_main_cst_0_apply, val_main_call1_cst_apply]
  simp only [hidx, val_main_call1_v0_apply, Ideal.hostDivf_def, Ideal.maximumf_def, Ideal.hostUnary_sqrt_def,
    Ideal.mulf_def, Ideal.ofBits_def, Ideal.ofBits_zero_f32, zero_add]
  rfl

/-- The concatenation along the rows is the stack: a row below 4096 is that row of the first scaled embedding, a row
    from 4096 on is the row 4096 less of the second. -/
theorem v10_at (x0 x1 : (⟨S4096x512, .f32⟩ : BufTy).Contents (Elt Ideal)) (r : Fin 8192) (d : Fin 512) :
    val_main_v10 (F := Ideal) x0 x1 (ix2 r d) = Cert.Spec.stack x0 x1 r d := by
  unfold val_main_v10 Cert.Spec.stack
  split
  · next h =>
    rw [← v4_at]
    exact concatenate_pair_apply_left (t := S8192x512) (s₁ := S4096x512) (s₂ := S4096x512) (0 : Fin 2) _ _
      Facts₀.concatenates_S4096x512_S4096x512_S8192x512_d0 (ix2 r d) rfl
      (ix2 ⟨r.val, h⟩ d) (fun b => match b with
        | ⟨0, _⟩ => rfl
        | ⟨1, _⟩ => rfl)
  · next h =>
    rw [← v9_at]
    exact concatenate_pair_apply_right (t := S8192x512) (s₁ := S4096x512) (s₂ := S4096x512) (0 : Fin 2) _ _
      Facts₀.concatenates_S4096x512_S4096x512_S8192x512_d0 (ix2 r d) rfl rfl
      (ix2 ⟨r.val - 4096, by omega⟩ d) (fun b hb => match b with
        | ⟨0, _⟩ => absurd rfl hb
        | ⟨1, _⟩ => rfl)
      (by show r.val - 4096 + 4096 = r.val; omega)

/-! ## The Gram entries, the mask and the denominators -/

/-- The contraction over the 512 columns of the stack with itself is the Gram entry. -/
theorem v11_at (x0 x1 : (⟨S4096x512, .f32⟩ : BufTy).Contents (Elt Ideal)) (r c : Fin 8192) :
    val_main_v11 (F := Ideal) x0 x1 (ix2 r c) = Cert.Spec.gram (Cert.Spec.stackArr x0 x1) r c := by
  have hl : ∀ k : Fin 512, lidx_main_v11 (ix2 r c) k = ix2 r k := fun k =>
    funext fun b => match b with
      | ⟨0, _⟩ => rfl
      | ⟨1, _⟩ => rfl
  have hr : ∀ k : Fin 512, ridx_main_v11 (ix2 r c) k = ix2 c k := fun k =>
    funext fun b => match b with
      | ⟨0, _⟩ => rfl
      | ⟨1, _⟩ => rfl
  rw [val_main_v11_apply]
  simp only [hl, hr, v10_at]
  rfl

/-- Row and column numbers below 8192, as 32-bit words (the row's with the word 0 added), are equal words exactly when
    the numbers are equal: both are below 2³², so neither wraps. -/
theorem word_eq (r c : Fin 8192) :
    IntOp.cmpi .eq (IntOp.addi (BitVec.ofNat 32 r.val) 0#32) (BitVec.ofNat 32 c.val) = if r = c then 1#1 else 0#1 := by
  have h0 : IntOp.addi (BitVec.ofNat 32 r.val) 0#32 = BitVec.ofNat 32 r.val := by
    show BitVec.ofNat 32 r.val + 0#32 = _
    exact BitVec.add_zero _
  rw [h0]
  by_cases h : r = c
  · subst h
    rw [if_pos rfl]
    show BitVec.ofBool (BitVec.ofNat 32 r.val == BitVec.ofNat 32 r.val) = 1#1
    rw [beq_self_eq_true]
    rfl
  · rw [if_neg h]
    have hne : BitVec.ofNat 32 r.val ≠ BitVec.ofNat 32 c.val := by
      intro he
      have hn := congrArg BitVec.toNat he
      simp only [BitVec.toNat_ofNat] at hn
      exact h (Fin.ext (by omega))
    show BitVec.ofBool (BitVec.ofNat 32 r.val == BitVec.ofNat 32 c.val) = 0#1
    rw [beq_eq_false_iff_ne.2 hne]
    rfl

/-- A bit converted to an extended real is 1 or 0. -/
theorem uitofp_bit (p : Prop) [Decidable p] :
    FloatOps.uitofp (F := Ideal) .f32 (if p then 1#1 else 0#1) = if p then (1 : EReal) else 0 := by
  split
  · show (((1#1 : BitVec 1).toNat : ℝ) : EReal) = 1
    simp
  · show (((0#1 : BitVec 1).toNat : ℝ) : EReal) = 0
    simp

/-- The mask entry: the literal one less the converted bit of "row = column". -/
theorem v25_at (r c : Fin 8192) :
    val_main_v25 (F := Ideal) (ix2 r c) = Cert.Spec.one - (if r = c then (1 : EReal) else 0) := by
  rw [val_main_v25_apply, val_main_v24_apply, val_main_cst_3_apply, val_main_v23_apply, val_main_v22_apply,
    val_main_v21_apply, val_main_v18_apply, val_main_v19_apply, val_main_v20_apply, val_main_c_apply]
  show FloatOps.subf (FloatOps.ofBits .f32 0x3F800000#32)
      (FloatOps.uitofp (F := Ideal) .f32 (IntOp.cmpi .eq (IntOp.addi (BitVec.ofNat 32 r.val) 0#32) (BitVec.ofNat 32 c.val))) = _
  rw [word_eq, uitofp_bit]
  rfl

/-- One entry of the masked exponentials, as the reference spells it. -/
theorem v26_at (x0 x1 : (⟨S4096x512, .f32⟩ : BufTy).Contents (Elt Ideal)) (r c : Fin 8192) :
    val_main_v26 (F := Ideal) x0 x1 (ix2 r c) = Cert.Spec.termMask (Cert.Spec.stackArr x0 x1) r c := by
  rw [val_main_v26_apply, val_main_v17_apply, val_main_v16_apply, val_main_v15_apply, val_main_cst_2_apply, v25_at, v11_at]
  rfl

/-- The denominator of row `r`: the sum from zero over all 8192 columns of the masked exponentials. -/
theorem v27_at (x0 x1 : (⟨S4096x512, .f32⟩ : BufTy).Contents (Elt Ideal)) (r : Fin 8192) :
    val_main_v27 (F := Ideal) x0 x1 (ix1 r) = Cert.Spec.denFlat (Cert.Spec.stackArr x0 x1) r := by
  have hidx : ∀ k : Fin 8192, idx_main_v27 (ix1 r) k = ix2 r k := fun k =>
    funext fun b => match b with
      | ⟨0, _⟩ => rfl
      | ⟨1, _⟩ => rfl
  rw [val_main_v27_apply, val_main_cst_4_apply]
  simp only [hidx, v26_at, Ideal.ofBits_def, Ideal.ofBits_zero_f32, zero_add]
  rfl

/-! ## The positives -/

/-- The inner product of the two scaled rows `a`: the sum from zero of the products. -/
theorem v13_at (x0 x1 : (⟨S4096x512, .f32⟩ : BufTy).Contents (Elt Ideal)) (a : Fin 4096) :
    val_main_v13 (F := Ideal) x0 x1 (ix1 a) = Cert.Spec.pos x0 x1 a := by
  have hidx : ∀ k : Fin 512, idx_main_v13 (ix1 a) k = ix2 a k := fun k =>
    funext fun b => match b with
      | ⟨0, _⟩ => rfl
      | ⟨1, _⟩ => rfl
  rw [val_main_v13_apply, val_main_cst_1_apply]
  simp only [hidx, val_main_v12_apply, v4_at, v9_at, Ideal.mulf_def, Ideal.ofBits_def, Ideal.ofBits_zero_f32, zero_add]
  rfl

/-- The positives twice over: the concatenation of the 4096 inner products with themselves. -/
theorem v14_at (x0 x1 : (⟨S4096x512, .f32⟩ : BufTy).Contents (Elt Ideal)) (r : Fin 8192) :
    val_main_v14 (F := Ideal) x0 x1 (ix1 r) = Cert.Spec.pos2 x0 x1 r := by
  unfold val_main_v14 Cert.Spec.pos2
  split
  · next h =>
    rw [← v13_at]
    exact concatenate_pair_apply_left (t := S8192) (s₁ := S4096) (s₂ := S4096) (0 : Fin 1) _ _
      Facts₀.concatenates_S4096_S4096_S8192_d0 (ix1 r) rfl
      (ix1 ⟨r.val, h⟩) (fun b => match b with
        | ⟨0, _⟩ => rfl)
  · next h =>
    rw [← v13_at]
    exact concatenate_pair_apply_right (t := S8192) (s₁ := S4096) (s₂ := S4096) (0 : Fin 1) _ _
      Facts₀.concatenates_S4096_S4096_S8192_d0 (ix1 r) rfl rfl
      (ix1 ⟨r.val - 4096, by omega⟩) (fun b hb => match b with
        | ⟨0, _⟩ => absurd rfl hb)
      (by show r.val - 4096 + 4096 = r.val; omega)

/-! ## The assembly -/

/-- The positives, as a vector. -/
theorem v14_eq (x0 x1 : (⟨S4096x512, .f32⟩ : BufTy).Contents (Elt Ideal)) :
    val_main_v14 (F := Ideal) x0 x1 = fun i => Cert.Spec.pos2 x0 x1 (i 0) := by
  funext i
  obtain ⟨r, rfl⟩ : ∃ r, i = ix1 r := ⟨i 0, eq_ix1 i⟩
  exact v14_at x0 x1 r

/-- The denominators, as a vector. -/
theorem v27_eq (x0 x1 : (⟨S4096x512, .f32⟩ : BufTy).Contents (Elt Ideal)) :
    val_main_v27 (F := Ideal) x0 x1 = fun i => Cert.Spec.denFlat (Cert.Spec.stackArr x0 x1) (i 0) := by
  funext i
  obtain ⟨r, rfl⟩ : ∃ r, i = ix1 r := ⟨i 0, eq_ix1 i⟩
  exact v27_at x0 x1 r

/-- The reference's result is the tail of the positives and the one-sum denominators. -/
theorem res_eq_tail (x0 x1 : (⟨S4096x512, .f32⟩ : BufTy).Contents (Elt Ideal)) :
    val_main_v34 (F := Ideal) x0 x1
      = Cert.Spec.tail Facts₀.bcast_S_S8192 Facts₀.reducesTo_S8192_S_d0 Facts₀.h_S_
          (fun i => Cert.Spec.pos2 x0 x1 (i 0)) (fun i => Cert.Spec.denFlat (Cert.Spec.stackArr x0 x1) (i 0)) := by
  rw [v34_eq_tail, v14_eq, v27_eq]

/-- Every weakly fair execution of the reference ends with its result at the tail of the positives and the one-sum
    denominators of its arguments, and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v34)
        = Cert.Spec.tail Facts₀.bcast_S_S8192 Facts₀.reducesTo_S8192_S_d0 Facts₀.h_S_
            (fun i => Cert.Spec.pos2 (m ((c.tc : Thread nD τ).loc main_arg0)) (m ((c.tc : Thread nD τ).loc main_arg1)) (i 0))
            (fun i => Cert.Spec.denFlat (Cert.Spec.stackArr (m ((c.tc : Thread nD τ).loc main_arg0)) (m ((c.tc : Thread nD τ).loc main_arg1))) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ?_) (Cert.ReferenceIdeal.Value.run (F := Ideal) m ρ)
  obtain ⟨h34, h0, h1⟩ := h c
  refine ⟨?_, h0, h1⟩
  rw [h34, Read.val_main_v34_eq]
  exact res_eq_tail _ _

end Cert.ReferenceIdeal.RefVal

end
-- ==== Proof.lean ====
/-
  NT-Xent contrastive loss: a Pallas program of two kernels against its jnp reference, equal on the extended reals.

  Both programs scale every row of the two embeddings to unit length (the length clamped below by ε), stack the 2 × 4096
  scaled rows into `z`, take for each row `r` the denominator `∑_{c ≠ r} exp (⟨z_r, z_c⟩ / ½)` and the positive `⟨zi_a, zj_a⟩`,
  and return `(∑_r −(pos_r / ½ − log den_r)) / 8192`. They differ in three spellings, none of which changes an extended real:
  the kernel multiplies the Gram entry by 2 where the reference divides by ½; the kernel replaces the diagonal entry by 0
  where the reference multiplies by a 0/1 mask (`0 · e = 0` and `1 · e = e` for every extended real `e`); and the kernel sums
  the 8192 columns tile by tile, 1024 at a time, into a running sum that starts at 0 (addition of extended reals is
  commutative and associative). The narrowing of `z` to bf16 is the identity on the extended reals. No finiteness of the
  inputs is used.

  The frames: each kernel is run at every grid point against its proof data and the program is the launch of the two
  kernels among its host operations; the second kernel reads the stacked array through two windows, each holding half of it.
  The word-level program's frame is the same argument at the word-level instance.
-/
import proofs.«154075_j24962349924507_1_alg».proof.Defs
import proofs.«154075_j24962349924507_1_alg».proof.Proof.Gen.Kernel
import proofs.«154075_j24962349924507_1_alg».proof.Proof.Gen.KernelIdeal
import proofs.«154075_j24962349924507_1_alg».proof.Proof.Gen.ReferenceIdeal
import proofs.«154075_j24962349924507_1_alg».proof.Proof.Gen.Pre_finite_inputs
import proofs.«154075_j24962349924507_1_alg».proof.Proof.K.Ends
import proofs.«154075_j24962349924507_1_alg».proof.Proof.KVal
import proofs.«154075_j24962349924507_1_alg».proof.Proof.Ref
import Idealize.ShloMosaic.Adequacy
import Idealize.ShloMosaic.Init

noncomputable section

namespace Cert.Proof

open Idealize.ShloMosaic Idealize.SL.Sem

/-- The word-level program runs and leaves its arguments unchanged. -/
theorem frame_k : @Cert.frame_Kernel Cert.Kernel.Gen.facts Cert.Pre_finite_inputs.Gen.facts :=
  fun m ρ _ => Cert.Kernel.Pf.frame m ρ

/-- So does the program read on the extended reals. -/
theorem frame_ki : @Cert.frame_KernelIdeal Cert.KernelIdeal.Gen.facts Cert.Pre_finite_inputs.Gen.facts :=
  fun m ρ _ => Cert.KernelIdeal.Pf.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefVal.run m ρ)

/-- On the extended reals the two programs end with equal results: both are the shared tail of the positives and of the
    denominators of the stacked scaled arguments, the kernel's summed tile by tile with the diagonal replaced by zero, the
    reference's in one sum under a 0/1 mask: one value for every row. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Pf.run_value m ρ, ?_⟩
  refine (θ_run Cert.ReferenceIdeal.defs _ _).mono (fun _ h c => ⟨(h c).1.trans ?_, (h c).2.1, (h c).2.2⟩)
    (Cert.ReferenceIdeal.RefVal.run m' ρ')
  rw [(hagree c).1, (hagree c).2]
  congr 1
  funext i
  exact (Cert.Spec.denTiled_eq_denFlat _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
